-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x36x1024 : Shape := ⟨3, ![512, 36, 1024]⟩
abbrev S512x36x36 : Shape := ⟨3, ![512, 36, 36]⟩
abbrev S512x36 : Shape := ⟨2, ![512, 36]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S512x36x1024 : S_.BroadcastsInDim S512x36x1024 (![] : Fin 0 → Fin S512x36x1024.rank)
  reducesTo_S512x36x1024_S_d0_1_2 : S512x36x1024.ReducesTo [0, 1, 2] S_
  h_S_ : 0 < S_.numel
  bcast_S_S512x36x36 : S_.BroadcastsInDim S512x36x36 (![] : Fin 0 → Fin S512x36x36.rank)
  reducesTo_S512x36x36_S_d0_1_2 : S512x36x36.ReducesTo [0, 1, 2] S_
  bcast_S_S512x36 : S_.BroadcastsInDim S512x36 (![] : Fin 0 → Fin S512x36.rank)
  reducesTo_S512x36_S_d0_1 : S512x36.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_arg11 : FVec F S1024 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x4096 .f32) (main_arg9 : FVec F S4096 .f32) (main_arg10 : FVec F S4096x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024x4096 .f32) (main_arg9 : FVec F S4096 .f32) (main_arg10 : FVec F S4096x1024 .f32) (main_arg11 : FVec F S1024 .f32) (main_v13 : IVec S_ 1) (main_v16 : IVec S512x36 1) : IVec S_ 1 :=
  let main_c_5 : IVec S_ 1 := constantI S_ 1 1#1
  let main_v17 : IVec S_ 1 := (fun x v => Host.reduce IntOp.andi x v reducesTo_S512x36_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x36x1024 .f32) (main_arg1 : FVec F S512x36x1024 .f32) (main_arg2 : FVec F S512x36x36 .f32) (main_arg3 : FVec F S512x36 .f32) (main_arg4 : FVec F S1024 .f32) (main_arg5 : FVec F S1024 .f32) (main_arg6 : FVec F S1024 .f32) (main_arg7 : FVec F S1024 .f32) (main_arg8 : FVec F S1024x4096 .f32) (main_arg9 : FVec F S4096 .f32) (main_arg10 : FVec F S4096x1024 .f32) (main_arg11 : FVec F S1024 .f32) : IVec S_ 1 :=
  let main_v0 : FVec F S512x36x1024 .f32 := Host.absf main_arg0
  let main_cst : FVec F S_ .f32 := constant S_ .f32 0x7F800000#32
  let main_v1 : FVec F S512x36x1024 .f32 := broadcastInDim S512x36x1024 ![] bcast_S_S512x36x1024 main_cst
  let main_v2 : IVec S512x36x1024 1 := cmpf .olt main_v0 main_v1
  let main_c : IVec S_ 1 := constantI S_ 1 1#1
  let main_v3 : IVec S_ 1 := (fun x v => Host.reduce IntOp.andi x v reducesTo_S512x36x1024_S_d0_1_2 h_S_) main_v2 main_c
  let main_v4 : FVec F S512x36x1024 .f32 := Host.absf main_arg1
  let main_cst_0 : FVec F S_ .f32 := constant S_ .f32 0x7F800000#32
  let main_v5 : FVec F S512x36x1024 .f32 := broadcastInDim S512x36x1024 ![] bcast_S_S512x36x1024 main_cst_0
  let main_v6 : IVec S512x36x1024 1 := cmpf .olt main_v4 main_v5
  let main_c_1 : IVec S_ 1 := constantI S_ 1 1#1
  let main_v7 : IVec S_ 1 := (fun x v => Host.reduce IntOp.andi x v reducesTo_S512x36x1024_S_d0_1_2 h_S_) main_v6 main_c_1
  let main_v8 : IVec S_ 1 := andi main_v3 main_v7
  let main_v9 : FVec F S512x36x36 .f32 := Host.absf main_arg2
  let main_cst_2 : FVec F S_ .f32 := constant S_ .f32 0x7F800000#32
  let main_v10 : FVec F S512x36x36 .f32 := broadcastInDim S512x36x36 ![] bcast_S_S512x36x36 main_cst_2
  let main_v11 : IVec S512x36x36 1 := cmpf .olt main_v9 main_v10
  let main_c_3 : IVec S_ 1 := constantI S_ 1 1#1
  let main_v12 : IVec S_ 1 := (fun x v => Host.reduce IntOp.andi x v reducesTo_S512x36x36_S_d0_1_2 h_S_) main_v11 main_c_3
  let main_v13 : IVec S_ 1 := andi main_v8 main_v12
  let main_v14 : FVec F S512x36 .f32 := Host.absf main_arg3
  let main_cst_4 : FVec F S_ .f32 := constant S_ .f32 0x7F800000#32
  let main_v15 : FVec F S512x36 .f32 := broadcastInDim S512x36 ![] bcast_S_S512x36 main_cst_4
  let main_v16 : IVec S512x36 1 := cmpf .olt main_v14 main_v15
  fn_part1 (F := F) main_arg4 main_arg5 main_arg6 main_arg7 main_arg8 main_arg9 main_arg10 main_arg11 main_v13 main_v16
-- ==== Kernel.lean ====
abbrev S512x36x1024 : Shape := ⟨3, ![512, 36, 1024]⟩
abbrev S512x36x36 : Shape := ⟨3, ![512, 36, 36]⟩
abbrev S512x36 : Shape := ⟨2, ![512, 36]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S512 : Shape := ⟨1, ![512]⟩
abbrev S512x1 : Shape := ⟨2, ![512, 1]⟩
abbrev S18432x1024 : Shape := ⟨2, ![18432, 1024]⟩
abbrev S18432x1 : Shape := ⟨2, ![18432, 1]⟩
abbrev S128x1024 : Shape := ⟨2, ![128, 1024]⟩
abbrev S128x1 : Shape := ⟨2, ![128, 1]⟩
abbrev S128 : Shape := ⟨1, ![128]⟩
abbrev S1x1024 : Shape := ⟨2, ![1, 1024]⟩
abbrev S128x4096 : Shape := ⟨2, ![128, 4096]⟩
abbrev S1x4096 : Shape := ⟨2, ![1, 4096]⟩

abbrev nBuf : Space → Nat
  | .hbm => 73
  | .vmem => 16
  | .smem => 0
  | _ => 0

abbrev bufTy : (tb : Table) → Fin (tcTables nBuf tb) → BufTy
  | .hbm, ⟨0, _⟩ => ⟨S512x36x1024, .f32⟩
  | .hbm, ⟨1, _⟩ => ⟨S512x36x1024, .f32⟩
  | .hbm, ⟨2, _⟩ => ⟨S512x36x36, .f32⟩
  | .hbm, ⟨3, _⟩ => ⟨S512x36, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096, .f32⟩
  | .hbm, ⟨10, _⟩ => ⟨S4096x1024, .f32⟩
  | .hbm, ⟨11, _⟩ => ⟨S1024, .f32⟩
  | .hbm, ⟨12, _⟩ => ⟨S_, .f32⟩
  | .hbm, ⟨13, _⟩ => ⟨S512x36, .f32⟩
  | .hbm, ⟨14, _⟩ => ⟨S_, .f32⟩
  | .hbm, ⟨15, _⟩ => ⟨S512x36, .f32⟩
  | .hbm, ⟨16, _⟩ => ⟨S512x36, .f32⟩
  | .hbm, ⟨17, _⟩ => ⟨S512x36, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S512x36, .f32⟩
  | .hbm, ⟨24, _⟩ => ⟨S512x36, .f32⟩
  | .hbm, ⟨25, _⟩ => ⟨S512x36, .f32⟩
  | .hbm, ⟨26, _⟩ => ⟨S512x36, .f32⟩
  | .hbm, ⟨27, _⟩ => ⟨S_, .f32⟩
  | .hbm, ⟨28, _⟩ => ⟨S512, .f32⟩
  | .hbm, ⟨29, _⟩ => ⟨S512x1, .f32⟩
  | .hbm, ⟨30, _⟩ => ⟨S512x36, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S512x36, .f32⟩
  | .hbm, ⟨35, _⟩ => ⟨S512x36, .f32⟩
  | .hbm, ⟨36, _⟩ => ⟨S512x36, .f32⟩
  | .hbm, ⟨37, _⟩ => ⟨S512x36, .f32⟩
  | .hbm, ⟨38, _⟩ => ⟨S_, .f32⟩
  | .hbm, ⟨39, _⟩ => ⟨S512x36, .f32⟩
  | .hbm, ⟨40, _⟩ => ⟨S512x36, .i1⟩
  | .hbm, ⟨41, _⟩ => ⟨S512x36, .f32⟩
  | .hbm, ⟨42, _⟩ => ⟨S_, .f32⟩
  | .hbm, ⟨43, _⟩ => ⟨S512x36, .f32⟩
  | .hbm, ⟨44, _⟩ => ⟨S512x36, .f32⟩
  | .hbm, ⟨45, _⟩ => ⟨S512x36, .f32⟩
  | .hbm, ⟨46, _⟩ => ⟨S_, .f32⟩
  | .hbm, ⟨47, _⟩ => ⟨S512x36, .f32⟩
  | .hbm, ⟨48, _⟩ => ⟨S512x36, .f32⟩
  | .hbm, ⟨49, _⟩ => ⟨S_, .f32⟩
  | .hbm, ⟨50, _⟩ => ⟨S512x36, .f32⟩
  | .hbm, ⟨51, _⟩ => ⟨S512x36, .f32⟩
  | .hbm, ⟨52, _⟩ => ⟨S512x36, .f32⟩
  | .hbm, ⟨53, _⟩ => ⟨S512x36, .f32⟩
  | .hbm, ⟨54, _⟩ => ⟨S_, .f32⟩
  | .hbm, ⟨55, _⟩ => ⟨S512x36, .f32⟩
  | .hbm, ⟨56, _⟩ => ⟨S512x36, .f32⟩
  | .hbm, ⟨57, _⟩ => ⟨S512x36, .f32⟩
  | .hbm, ⟨58, _⟩ => ⟨S_, .f32⟩
  | .hbm, ⟨59, _⟩ => ⟨S512x36, .f32⟩
  | .hbm, ⟨60, _⟩ => ⟨S512x36, .f32⟩
  | .hbm, ⟨61, _⟩ => ⟨S_, .f32⟩
  | .hbm, ⟨62, _⟩ => ⟨S512x36, .f32⟩
  | .hbm, ⟨63, _⟩ => ⟨S512x36, .f32⟩
  | .hbm, ⟨64, _⟩ => ⟨S512x36, .f32⟩
  | .hbm, ⟨65, _⟩ => ⟨S512x36, .f32⟩
  | .hbm, ⟨66, _⟩ => ⟨S18432x1024, .f32⟩
  | .hbm, ⟨67, _⟩ => ⟨S18432x1024, .f32⟩
  | .hbm, ⟨68, _⟩ => ⟨S18432x1, .f32⟩
  | .hbm, ⟨69, _⟩ => ⟨S1024x4096, .bf16⟩
  | .hbm, ⟨70, _⟩ => ⟨S4096x1024, .bf16⟩
  | .hbm, ⟨71, _⟩ => ⟨S18432x1024, .f32⟩
  | .hbm, ⟨72, _⟩ => ⟨S512x36x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1, .f32⟩
  | .local _ .vmem, ⟨5, _⟩ => ⟨S128x1, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024x4096, .bf16⟩
  | .local _ .vmem, ⟨11, _⟩ => ⟨S4096, .f32⟩
  | .local _ .vmem, ⟨12, _⟩ => ⟨S4096x1024, .bf16⟩
  | .local _ .vmem, ⟨13, _⟩ => ⟨S1024, .f32⟩
  | .local _ .vmem, ⟨14, _⟩ => ⟨S128x1024, .f32⟩
  | .local _ .vmem, ⟨15, _⟩ => ⟨S128x1024, .f32⟩
  | _, _ => ⟨S512x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_cst_12 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S512x36x36_S512x36_d2 : S512x36x36.ReducesTo [2] S512x36
  h_S_ : 0 < S_.numel
  bcast_S_S512x36 : S_.BroadcastsInDim S512x36 (![] : Fin 0 → Fin S512x36.rank)
  reducesTo_S512x36_S_d0_1 : S512x36.ReducesTo [0, 1] S_
  reducesTo_S512x36_S512_d1 : S512x36.ReducesTo [1] S512
  bcast_S512_S512x1_0 : S512.BroadcastsInDim S512x1 (![0] : Fin 1 → Fin S512x1.rank)
  bcast_S512x1_S512x36_0_1 : S512x1.BroadcastsInDim S512x36 (![0, 1] : Fin 2 → Fin S512x36.rank)
  shapeCasts_S512x36x1024_S18432x1024 : S512x36x1024.ShapeCasts S18432x1024
  shapeCasts_S512x36_S18432x1 : S512x36.ShapeCasts S18432x1
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S128x1024_S128 : S128x1024.Reduces [1] S128
  shapeCasts_S128_S128x1 : S128.ShapeCasts S128x1
  broadcasts_S128x1_S128x1024 : S128x1.Broadcasts S128x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S18432x1024_S512x36x1024 : S18432x1024.ShapeCasts S512x36x1024
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S18432x1024.size a
  hwx0_0 : ∀ i : grid0.Coords, EltTy.bits .f32 = 32 ∨ (Rect.block (s := S18432x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S18432x1024.size a
  hwx0_1 : ∀ i : grid0.Coords, EltTy.bits .f32 = 32 ∨ (Rect.block (s := S18432x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S18432x1.size a
  hwx0_2 : ∀ i : grid0.Coords, EltTy.bits .f32 = 32 ∨ (Rect.block (s := S18432x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S4096.size a
  hwx0_8 : ∀ i : grid0.Coords, EltTy.bits .f32 = 32 ∨ (Rect.block (s := S4096) S4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x1024.size a ≤ S4096x1024.size a
  hwx0_9 : ∀ i : grid0.Coords, EltTy.bits .bf16 = 32 ∨ (Rect.block (s := S4096x1024) S4096x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S18432x1024.size a
  hwx0_11 : ∀ i : grid0.Coords, EltTy.bits .f32 = 32 ∨ (Rect.block (s := S18432x1024) S128x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v40) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S4096x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S512x36x1024 : Shape := ⟨3, ![512, 36, 1024]⟩
abbrev S512x36x36 : Shape := ⟨3, ![512, 36, 36]⟩
abbrev S512x36 : Shape := ⟨2, ![512, 36]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S512x36x1 : Shape := ⟨3, ![512, 36, 1]⟩
abbrev S1x1x1024 : Shape := ⟨3, ![1, 1, 1024]⟩
abbrev S512 : Shape := ⟨1, ![512]⟩
abbrev S512x1 : Shape := ⟨2, ![512, 1]⟩
abbrev S512x36x4096 : Shape := ⟨3, ![512, 36, 4096]⟩
abbrev S1x1x4096 : Shape := ⟨3, ![1, 1, 4096]⟩

abbrev nBuf : Space → Nat
  | .hbm => 140
  | .vmem => 0
  | .smem => 0
  | _ => 0

abbrev hbmTy0_0 (i : Nat) : BufTy := match i % 128 with
  | 0 => ⟨S512x36x1024, .f32⟩
  | 1 => ⟨S512x36x1024, .f32⟩
  | 2 => ⟨S512x36x36, .f32⟩
  | 3 => ⟨S512x36, .f32⟩
  | 4 => ⟨S1024, .f32⟩
  | 5 => ⟨S1024, .f32⟩
  | 6 => ⟨S1024, .f32⟩
  | 7 => ⟨S1024, .f32⟩
  | 8 => ⟨S1024x4096, .f32⟩
  | 9 => ⟨S4096, .f32⟩
  | 10 => ⟨S4096x1024, .f32⟩
  | 11 => ⟨S1024, .f32⟩
  | 12 => ⟨S512x36x1024, .f32⟩
  | 13 => ⟨S_, .f32⟩
  | 14 => ⟨S512x36, .f32⟩
  | 15 => ⟨S512x36x1, .f32⟩
  | 16 => ⟨S_, .f32⟩
  | 17 => ⟨S512x36x1, .f32⟩
  | 18 => ⟨S512x36x1, .f32⟩
  | 19 => ⟨S512x36x1024, .f32⟩
  | 20 => ⟨S512x36x1024, .f32⟩
  | 21 => ⟨S512x36x1024, .f32⟩
  | 22 => ⟨S_, .f32⟩
  | 23 => ⟨S512x36, .f32⟩
  | 24 => ⟨S512x36x1, .f32⟩
  | 25 => ⟨S_, .f32⟩
  | 26 => ⟨S512x36x1, .f32⟩
  | 27 => ⟨S512x36x1, .f32⟩
  | 28 => ⟨S512x36x1024, .f32⟩
  | 29 => ⟨S512x36x1024, .f32⟩
  | 30 => ⟨S1x1x1024, .f32⟩
  | 31 => ⟨S512x36x1024, .f32⟩
  | 32 => ⟨S512x36x1024, .f32⟩
  | 33 => ⟨S_, .f32⟩
  | 34 => ⟨S512x36x1, .f32⟩
  | 35 => ⟨S512x36x1, .f32⟩
  | 36 => ⟨S512x36x1, .f32⟩
  | 37 => ⟨S512x36x1024, .f32⟩
  | 38 => ⟨S512x36x1024, .f32⟩
  | 39 => ⟨S1x1x1024, .f32⟩
  | 40 => ⟨S512x36x1024, .f32⟩
  | 41 => ⟨S512x36x1024, .f32⟩
  | 42 => ⟨S_, .f32⟩
  | 43 => ⟨S512x36, .f32⟩
  | 44 => ⟨S_, .f32⟩
  | 45 => ⟨S512x36, .f32⟩
  | 46 => ⟨S512x36, .f32⟩
  | 47 => ⟨S512x36, .f32⟩
  | 48 => ⟨S_, .f32⟩
  | 49 => ⟨S_, .f32⟩
  | 50 => ⟨S_, .f32⟩
  | 51 => ⟨S_, .i1⟩
  | 52 => ⟨S_, .f32⟩
  | 53 => ⟨S512x36, .f32⟩
  | 54 => ⟨S512x36, .f32⟩
  | 55 => ⟨S512x36, .f32⟩
  | 56 => ⟨S512x36, .f32⟩
  | 57 => ⟨S_, .f32⟩
  | 58 => ⟨S512, .f32⟩
  | 59 => ⟨S512x1, .f32⟩
  | 60 => ⟨S512x36, .f32⟩
  | 61 => ⟨S_, .f32⟩
  | 62 => ⟨S512, .f32⟩
  | 63 => ⟨S512x1, .f32⟩
  | 64 => ⟨S512x36, .f32⟩
  | 65 => ⟨S512x36, .f32⟩
  | 66 => ⟨S512x36, .f32⟩
  | 67 => ⟨S512x36, .f32⟩
  | 68 => ⟨S_, .f32⟩
  | 69 => ⟨S512x36, .f32⟩
  | 70 => ⟨S512x36, .i1⟩
  | 71 => ⟨S512x36, .f32⟩
  | 72 => ⟨S_, .f32⟩
  | 73 => ⟨S512x36, .f32⟩
  | 74 => ⟨S512x36, .f32⟩
  | 75 => ⟨S512x36, .f32⟩
  | 76 => ⟨S_, .f32⟩
  | 77 => ⟨S512x36, .f32⟩
  | 78 => ⟨S512x36, .f32⟩
  | 79 => ⟨S_, .f32⟩
  | 80 => ⟨S512x36, .f32⟩
  | 81 => ⟨S512x36, .f32⟩
  | 82 => ⟨S512x36, .f32⟩
  | 83 => ⟨S512x36, .f32⟩
  | 84 => ⟨S_, .f32⟩
  | 85 => ⟨S512x36, .f32⟩
  | 86 => ⟨S512x36, .f32⟩
  | 87 => ⟨S512x36, .f32⟩
  | 88 => ⟨S_, .f32⟩
  | 89 => ⟨S512x36, .f32⟩
  | 90 => ⟨S512x36, .f32⟩
  | 91 => ⟨S_, .f32⟩
  | 92 => ⟨S512x36, .f32⟩
  | 93 => ⟨S512x36, .f32⟩
  | 94 => ⟨S512x36, .f32⟩
  | 95 => ⟨S512x36, .f32⟩
  | 96 => ⟨S512x36x1, .f32⟩
  | 97 => ⟨S512x36x1024, .f32⟩
  | 98 => ⟨S512x36x1024, .f32⟩
  | 99 => ⟨S512x36x4096, .f32⟩
  | 100 => ⟨S1x1x4096, .f32⟩
  | 101 => ⟨S512x36x4096, .f32⟩
  | 102 => ⟨S512x36x4096, .f32⟩
  | 103 => ⟨S_, .f32⟩
  | 104 => ⟨S512x36x4096, .f32⟩
  | 105 => ⟨S512x36x4096, .f32⟩
  | 106 => ⟨S512x36x1024, .f32⟩
  | 107 => ⟨S1x1x1024, .f32⟩
  | 108 => ⟨S512x36x1024, .f32⟩
  | 109 => ⟨S512x36x1024, .f32⟩
  | 110 => ⟨S512x36x1024, .f32⟩
  | 111 => ⟨S_, .f32⟩
  | 112 => ⟨S512x36, .f32⟩
  | 113 => ⟨S512x36x1, .f32⟩
  | 114 => ⟨S_, .f32⟩
  | 115 => ⟨S512x36x1, .f32⟩
  | 116 => ⟨S512x36x1, .f32⟩
  | 117 => ⟨S512x36x1024, .f32⟩
  | 118 => ⟨S512x36x1024, .f32⟩
  | 119 => ⟨S512x36x1024, .f32⟩
  | 120 => ⟨S_, .f32⟩
  | 121 => ⟨S512x36, .f32⟩
  | 122 => ⟨S512x36x1, .f32⟩
  | 123 => ⟨S_, .f32⟩
  | 124 => ⟨S512x36x1, .f32⟩
  | 125 => ⟨S512x36x1, .f32⟩
  | 126 => ⟨S512x36x1024, .f32⟩
  | 127 => ⟨S512x36x1024, .f32⟩
  | _ => ⟨S512x36x1024, .f32⟩

abbrev hbmTy0_1 (i : Nat) : BufTy := match i % 128 with
  | 0 => ⟨S1x1x1024, .f32⟩
  | 1 => ⟨S512x36x1024, .f32⟩
  | 2 => ⟨S512x36x1024, .f32⟩
  | 3 => ⟨S_, .f32⟩
  | 4 => ⟨S512x36x1, .f32⟩
  | 5 => ⟨S512x36x1, .f32⟩
  | 6 => ⟨S512x36x1, .f32⟩
  | 7 => ⟨S512x36x1024, .f32⟩
  | 8 => ⟨S512x36x1024, .f32⟩
  | 9 => ⟨S1x1x1024, .f32⟩
  | 10 => ⟨S512x36x1024, .f32⟩
  | 11 => ⟨S512x36x1024, .f32⟩
  | _ => ⟨S512x36x1024, .f32⟩

abbrev hbmTy (i : Nat) : BufTy := match i / 128 with
  | 0 => hbmTy0_0 i
  | 1 => hbmTy0_1 i
  | _ => ⟨S512x36x1024, .f32⟩

abbrev bufTy : (tb : Table) → Fin (tcTables nBuf tb) → BufTy
  | .hbm, ⟨i, _⟩ => hbmTy i
  | _, _ => ⟨S512x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call1_cst : Ref sig .tc := ⟨.hbm, 103, rfl⟩
abbrev main_call1_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_18 : Ref sig .tc := ⟨.hbm, 111, rfl⟩
abbrev main_v78 : Ref sig .tc := ⟨.hbm, 112, rfl⟩
abbrev main_v79 : Ref sig .tc := ⟨.hbm, 113, rfl⟩
abbrev main_cst_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  reducesTo_S512x36x1024_S512x36_d2 : S512x36x1024.ReducesTo [2] S512x36
  h_S_ : 0 < S_.numel
  bcast_S512x36_S512x36x1_0_1 : S512x36.BroadcastsInDim S512x36x1 (![0, 1] : Fin 2 → Fin S512x36x1.rank)
  bcast_S_S512x36x1 : S_.BroadcastsInDim S512x36x1 (![] : Fin 0 → Fin S512x36x1.rank)
  bcast_S512x36x1_S512x36x1024_0_1_2 : S512x36x1.BroadcastsInDim S512x36x1024 (![0, 1, 2] : Fin 3 → Fin S512x36x1024.rank)
  bcast_S1024_S1x1x1024_2 : S1024.BroadcastsInDim S1x1x1024 (![2] : Fin 1 → Fin S1x1x1024.rank)
  bcast_S1x1x1024_S512x36x1024_0_1_2 : S1x1x1024.BroadcastsInDim S512x36x1024 (![0, 1, 2] : Fin 3 → Fin S512x36x1024.rank)
  reducesTo_S512x36x36_S512x36_d2 : S512x36x36.ReducesTo [2] S512x36
  bcast_S_S512x36 : S_.BroadcastsInDim S512x36 (![] : Fin 0 → Fin S512x36.rank)
  reducesTo_S512x36_S_d0_1 : S512x36.ReducesTo [0, 1] S_
  reducesTo_S512x36_S512_d1 : S512x36.ReducesTo [1] S512
  bcast_S512_S512x1_0 : S512.BroadcastsInDim S512x1 (![0] : Fin 1 → Fin S512x1.rank)
  bcast_S512x1_S512x36_0_1 : S512x1.BroadcastsInDim S512x36 (![0, 1] : Fin 2 → Fin S512x36.rank)
  bcast_S4096_S1x1x4096_2 : S4096.BroadcastsInDim S1x1x4096 (![2] : Fin 1 → Fin S1x1x4096.rank)
  bcast_S1x1x4096_S512x36x4096_0_1_2 : S1x1x4096.BroadcastsInDim S512x36x4096 (![0, 1, 2] : Fin 3 → Fin S512x36x4096.rank)
  bcast_S_S512x36x4096 : S_.BroadcastsInDim S512x36x4096 (![] : Fin 0 → Fin S512x36x4096.rank)
  dot_S512x36x1024_S1024x4096_S512x36x4096_2_0_01_1_n_n_wf : DotDims.WF S512x36x1024 S1024x4096 S512x36x4096 [2] [0] [0, 1] [1] [] []
  dot_S512x36x4096_S4096x1024_S512x36x1024_2_0_01_1_n_n_wf : DotDims.WF S512x36x4096 S4096x1024 S512x36x1024 [2] [0] [0, 1] [1] [] []

variable [Facts₀]

def dot_S512x36x1024_S1024x4096_S512x36x4096_2_0_01_1_n_n : DotDims S512x36x1024 S1024x4096 S512x36x4096 where
  lhsContracting := [2]
  rhsContracting := [0]
  lhsNonContracting := [0, 1]
  rhsNonContracting := [1]
  lhsBatch := []
  rhsBatch := []
  wf := dot_S512x36x1024_S1024x4096_S512x36x4096_2_0_01_1_n_n_wf
def dot_S512x36x4096_S4096x1024_S512x36x1024_2_0_01_1_n_n : DotDims S512x36x4096 S4096x1024 S512x36x1024 where
  lhsContracting := [2]
  rhsContracting := [0]
  lhsNonContracting := [0, 1]
  rhsNonContracting := [1]
  lhsBatch := []
  rhsBatch := []
  wf := dot_S512x36x4096_S4096x1024_S512x36x1024_2_0_01_1_n_n_wf

class Facts : Prop extends Facts₀ where

variable [Facts]
-- ==== Proof.RowSpec.lean ====
/-
  One row of the computation, as functions on the extended reals.

  Every output row of both programs depends on one input row only: the row `x = v + q` of 1024 entries, the
  scalar gate weight `w` of that row, and the shared parameters. A layer norm of a row `x` with gain `g` and
  bias `b` is `g·(x − mean x) / sqrt(var x + ε) + b`, where `mean x = (∑ x) / 1024` and `var x` is the mean
  of the squared deviations. One program divides by `sqrt (var + ε)`, the other multiplies by
  `rsqrt (var + ε)`. On the extended reals the two agree exactly when `var + ε` is positive (a positive real,
  or +∞): at a positive real `z` both are the product with `(√z)⁻¹`, and at +∞ both are `0`. The variance is
  a sum of squares divided by 1024, and a square is never negative on the extended reals (the squares of the two
  infinities are +∞), so `var x + ε > 0` for every row, finite or not: no finiteness of the inputs is needed.
-/
import Idealize.ShloMosaic.PureOps.Ideal
import Idealize.ShloMosaic.PureOps.Ideal.Laws

noncomputable section

namespace Cert.RowSpec

open Idealize.ShloMosaic

/-- The word `0x44800000` denotes the real 1024. -/
theorem ofBits_1024 : Ideal.ofBits .f32 0x44800000#32 = ((1024 : ℝ) : EReal) := by
  simp [Ideal.ofBits, Ideal.ieee, -EReal.coe_mul]; norm_num

/-- The word `0x358637BD` (the float nearest 1e-6) denotes a positive real. -/
theorem eps_pos : (0 : EReal) < Ideal.ofBits .f32 0x358637BD#32 := by
  have h : Ideal.ofBits .f32 0x358637BD#32 = ((8796093 / 2 ^ 43 : ℝ) : EReal) := by
    simp [Ideal.ofBits, Ideal.ieee, -EReal.coe_mul]; norm_num
  rw [h]; exact EReal.coe_pos.mpr (by norm_num)

/-- A square is nonnegative on the extended reals: the squares of both infinities are +∞. -/
theorem mul_self_nonneg (t : EReal) : 0 ≤ t * t := by
  induction t using EReal.rec with
  | bot => simp
  | top => simp
  | coe r => rw [← EReal.coe_mul]; exact EReal.coe_nonneg.mpr (_root_.mul_self_nonneg r)

/-- A row of 1024 entries. -/
abbrev Row := Fin 1024 → EReal

/-- The mean of a row: its sum divided by 1024. -/
def mean (x : Row) : EReal := Ideal.div (∑ k : Fin 1024, x k) (Ideal.ofBits .f32 0x44800000#32)

/-- The variance of a row: the mean of the squared deviations from the mean. -/
def var (x : Row) : EReal := mean (fun k => (x k - mean x) * (x k - mean x))

/-- The mean of a row of nonnegative entries is nonnegative. -/
theorem mean_nonneg (y : Row) (hy : ∀ k, 0 ≤ y k) : 0 ≤ mean y := by
  unfold mean
  rw [ofBits_1024, Ideal.div_coe (by norm_num : (1024 : ℝ) ≠ 0)]
  exact EReal.mul_nonneg (Finset.sum_nonneg fun k _ => hy k) (EReal.coe_nonneg.mpr (by norm_num))

/-- `var x + ε` is positive for every row. -/
theorem var_eps_pos (x : Row) : 0 < var x + Ideal.ofBits .f32 0x358637BD#32 :=
  lt_of_lt_of_le eps_pos (le_add_of_nonneg_left (mean_nonneg _ fun k => mul_self_nonneg _))

/-- At a positive `z` the product with `rsqrt z` is the quotient by `sqrt z`. -/
theorem mul_rsqrt_eq_div_sqrt (A z : EReal) (hz : 0 < z) : A * Ideal.rsqrt z = Ideal.div A (Ideal.sqrt z) := by
  induction z using EReal.rec with
  | bot => exact absurd hz (not_lt.mpr bot_le)
  | top =>
    rw [Ideal.rsqrt_top, Ideal.sqrt_top, Ideal.div, if_neg EReal.top_ne_zero, EReal.inv_top]
  | coe r =>
    have hr : 0 < r := EReal.coe_pos.mp hz
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

/-- The layer norm of a row, dividing by the square root. -/
def lnDiv (g b x : Row) : Row := fun h =>
  Ideal.div (g h * (x h - mean x)) (Ideal.sqrt (var x + Ideal.ofBits .f32 0x358637BD#32)) + b h

/-- The layer norm of a row, multiplying by the reciprocal square root. -/
def lnRsqrt (g b x : Row) : Row := fun h =>
  g h * (x h - mean x) * Ideal.rsqrt (var x + Ideal.ofBits .f32 0x358637BD#32) + b h

/-- The two forms are one function. -/
theorem lnRsqrt_eq_lnDiv (g b x : Row) : lnRsqrt g b x = lnDiv g b x :=
  funext fun h => congrArg (· + b h) (mul_rsqrt_eq_div_sqrt _ _ (var_eps_pos x))

/-- The hidden layer of the feed-forward block at one row: `max (∑ₖ mmₖ·W1ₖₙ + c1ₙ) 0`. -/
def hidden (W1 : Fin 1024 → Fin 4096 → EReal) (c1 : Fin 4096 → EReal) (mm : Row) : Fin 4096 → EReal := fun n =>
  max ((∑ k : Fin 1024, mm k * W1 k n) + c1 n) 0

/-- The feed-forward block at one row: `∑ₙ hiddenₙ·W2ₙₕ + c2ₕ`. -/
def ffn (W1 : Fin 1024 → Fin 4096 → EReal) (c1 : Fin 4096 → EReal) (W2 : Fin 4096 → Fin 1024 → EReal) (c2 : Row)
    (mm : Row) : Row := fun h =>
  (∑ n : Fin 4096, hidden W1 c1 mm n * W2 n h) + c2 h

/-- One output row, with the quotient form of both layer norms: the first norm of the row, scaled by the row's gate
    weight, plus its feed-forward image, normed again. -/
def rowOutDiv (g1 b1 g2 b2 : Row) (W1 : Fin 1024 → Fin 4096 → EReal) (c1 : Fin 4096 → EReal)
    (W2 : Fin 4096 → Fin 1024 → EReal) (c2 : Row) (w : EReal) (x : Row) : Row :=
  lnDiv g2 b2 (fun k => w * lnDiv g1 b1 x k + ffn W1 c1 W2 c2 (fun k' => w * lnDiv g1 b1 x k') k)

/-- The same with the reciprocal-square-root form of both layer norms. -/
def rowOutRsqrt (g1 b1 g2 b2 : Row) (W1 : Fin 1024 → Fin 4096 → EReal) (c1 : Fin 4096 → EReal)
    (W2 : Fin 4096 → Fin 1024 → EReal) (c2 : Row) (w : EReal) (x : Row) : Row :=
  lnRsqrt g2 b2 (fun k => w * lnRsqrt g1 b1 x k + ffn W1 c1 W2 c2 (fun k' => w * lnRsqrt g1 b1 x k') k)

/-- The two are one function. -/
theorem rowOutRsqrt_eq_rowOutDiv (g1 b1 g2 b2 : Row) (W1 : Fin 1024 → Fin 4096 → EReal) (c1 : Fin 4096 → EReal)
    (W2 : Fin 4096 → Fin 1024 → EReal) (c2 : Row) (w : EReal) (x : Row) :
    rowOutRsqrt g1 b1 g2 b2 W1 c1 W2 c2 w x = rowOutDiv g1 b1 g2 b2 W1 c1 W2 c2 w x := by
  unfold rowOutRsqrt rowOutDiv
  rw [lnRsqrt_eq_lnDiv g1 b1 x, lnRsqrt_eq_lnDiv]

end Cert.RowSpec

end
-- ==== Proof.KernelRow.lean ====
/-
  The kernel body's stored value, read at one entry of the block.

  The body stores one [128, 1024] block. Its entry at row `p`, column `q` depends on row `p` of the two input
  blocks, on the gate weight of row `p`, and on the parameters, and it is the row function of Proof/RowSpec.lean
  (the reciprocal-square-root form) of that row at column `q`.

  Both layer norms of the body have one shape as vector operations: the column of row means (a sum along the rows
  divided by 1024), the deviations from it, the column of variances, the reciprocal square root of variance plus ε
  broadcast back along the rows, and the gain and bias rows broadcast down the columns. That shape is named once
  (`lnVec`) and read at an entry once; the two matrix products are sums over the one contracted axis.
-/
import proofs.«165265_j77592879170023_1_alg».proof.Proof.Gen.KernelIdeal.Skeleton
import proofs.«165265_j77592879170023_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.RowSpec

/-! ## Layout operations at an entry -/

section Layout
variable {α : Type}

/-- An `[a]` array viewed as a column `[a, 1]` reads, at `(p, z)`, the operand at `p`. -/
theorem shapeCast_col_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast along the rows to `[a, b]` reads, at `(p, q)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[b]` array viewed as a row `[1, b]` and broadcast down the columns to `[a, b]` reads, at `(p, q)`, the
    array at `q`. -/
theorem broadcastTo_row_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ g h1) h2 (ix2 p q) = g (ix1 q) :=
  (broadcastTo_1b_ab_apply _ h2 p q).trans (shapeCast_a_1a_apply g h1 0 q)

end Layout

/-- The reciprocal square root of a vector, at an entry. -/
theorem rsqrt_apply {s : Shape} {φ : FTy} (x : FVec Ideal s φ) (i : s.Idx) : rsqrt x i = Ideal.rsqrt (x i) := rfl

/-- A sum along the rows of an `[a, b]` array, at row `p`: the sum of that row's entries. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 hR hφ hacc (ix1 p) = ∑ k : Fin b, src (ix2 p k) := by
  refine (Ideal.multiReduction_add_single src _ hR hφ hacc (ix1 p)).trans ?_
  show ∑ k : Fin b, src (hR.lift (ix1 p) k) = _
  refine Finset.sum_congr rfl fun k _ => congrArg src (funext fun d => Fin.ext ?_)
  match d with
  | ⟨0, _⟩ => rfl
  | ⟨1, _⟩ => rfl

/-! ## The layer norm as vector operations -/

/-- The column of row means of a [128, 1024] array: the sum along each row divided by 1024. -/
def meanCol (X : FVec Ideal S128x1024 .f32) : FVec Ideal S128x1 .f32 :=
  divf (shapeCast S128x1 (multiReduction .add [1] S128 X 0x00000000#32 reduces_S128x1024_S128 (.inl rfl) rfl) shapeCasts_S128_S128x1)
    (broadcast S128x1 (Scalar.ofBits .f32 0x44800000#32))

/-- At row `p` it is the mean of that row. -/
theorem meanCol_apply (X : FVec Ideal S128x1024 .f32) (p : Fin 128) (z : Fin 1) :
    meanCol X (ix2 p z) = mean (fun k => X (ix2 p k)) := by
  show Ideal.div (shapeCast S128x1 (multiReduction .add [1] S128 X 0x00000000#32 reduces_S128x1024_S128 (.inl rfl) rfl)
    shapeCasts_S128_S128x1 (ix2 p z)) (Ideal.ofBits .f32 0x44800000#32) = _
  rw [shapeCast_col_apply]
  exact congrArg (Ideal.div · (Ideal.ofBits .f32 0x44800000#32)) (rowSum_apply X _ _ _ p)

/-- The layer norm of every row of a [128, 1024] array, with gain `g` and bias `b`, in the order the body computes it. -/
def lnVec (g b : FVec Ideal S1024 .f32) (X : FVec Ideal S128x1024 .f32) : FVec Ideal S128x1024 .f32 :=
  addf
    (mulf
      (mulf (broadcastTo S128x1024 (shapeCast S1x1024 g shapeCasts_S1024_S1x1024) broadcasts_S1x1024_S128x1024)
        (subf X (broadcastTo S128x1024 (meanCol X) broadcasts_S128x1_S128x1024)))
      (broadcastTo S128x1024
        (rsqrt (addf
          (meanCol (mulf (subf X (broadcastTo S128x1024 (meanCol X) broadcasts_S128x1_S128x1024))
            (subf X (broadcastTo S128x1024 (meanCol X) broadcasts_S128x1_S128x1024))))
          (broadcast S128x1 (Scalar.ofBits .f32 0x358637BD#32))))
        broadcasts_S128x1_S128x1024))
    (broadcastTo S128x1024 (shapeCast S1x1024 b shapeCasts_S1024_S1x1024) broadcasts_S1x1024_S128x1024)

/-- At `(p, q)` it is the layer norm of row `p` at column `q`. -/
theorem lnVec_apply (g b : FVec Ideal S1024 .f32) (X : FVec Ideal S128x1024 .f32) (p : Fin 128) (q : Fin 1024) :
    lnVec g b X (ix2 p q) = lnRsqrt (fun k => g (ix1 k)) (fun k => b (ix1 k)) (fun k => X (ix2 p k)) q := by
  unfold lnVec
  simp only [addf_apply, mulf_apply, subf_apply, rsqrt_apply, broadcast_apply, broadcastTo_row_apply, broadcastTo_col_apply,
    meanCol_apply]
  rfl

/-! ## The two matrix products -/

theorem lhs_up_0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_up_1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_up_0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_up_1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The product of a [128, 1024] by a [1024, 4096] array into a zero accumulator, at `(p, n)`: the sum over the contracted axis. -/
theorem matmul_up_apply (lhs : FVec Ideal S128x1024 .bf16) (rhs : FVec Ideal S1024x4096 .bf16) (p : Fin 128) (n : Fin 4096) :
    matmul dot_S128x1024_S1024x4096_S128x4096_1_0_0_1_n_n none lhs rhs (constant S128x4096 .f32 0x00000000#32) (ix2 p n) = ∑ k : Fin 1024, lhs (ix2 p k) * rhs (ix2 k n) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p n) ((ValueIdx.contrEquiv1 dot_S128x1024_S1024x4096_S128x4096_1_0_0_1_n_n 1024 rfl rfl).symm k) = ix2 p k := funext fun a => Fin.ext (by
    match a with
    | ⟨0, _⟩ => exact lhs_up_0 _ _
    | ⟨1, _⟩ => exact (lhs_up_1 _ _).trans hk)
  have er : dot_S128x1024_S1024x4096_S128x4096_1_0_0_1_n_n.rhsIdx (ix2 p n) ((ValueIdx.contrEquiv1 dot_S128x1024_S1024x4096_S128x4096_1_0_0_1_n_n 1024 rfl rfl).symm k) = ix2 k n := funext fun a => Fin.ext (by
    match a with
    | ⟨0, _⟩ => exact (rhs_up_0 _ _).trans hk
    | ⟨1, _⟩ => exact rhs_up_1 _ _)
  rw [el, er]

theorem lhs_down_0 (i : S128x1024.Idx) (q : dot_S128x4096_S4096x1024_S128x1024_1_0_0_1_n_n.contr.Idx) : (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem lhs_down_1 (i : S128x1024.Idx) (q : dot_S128x4096_S4096x1024_S128x1024_1_0_0_1_n_n.contr.Idx) : (dot_S128x4096_S4096x1024_S128x1024_1_0_0_1_n_n.lhsIdx i q 1).val = (q ⟨0, by decide⟩).val :=
  dot_S128x4096_S4096x1024_S128x1024_1_0_0_1_n_n.lhsIdx_val_of_single rfl i q
theorem rhs_down_0 (i : S128x1024.Idx) (q : dot_S128x4096_S4096x1024_S128x1024_1_0_0_1_n_n.contr.Idx) : (dot_S128x4096_S4096x1024_S128x1024_1_0_0_1_n_n.rhsIdx i q 0).val = (q ⟨0, by decide⟩).val :=
  dot_S128x4096_S4096x1024_S128x1024_1_0_0_1_n_n.rhsIdx_val_of_single rfl i q
theorem rhs_down_1 (i : S128x1024.Idx) (q : dot_S128x4096_S4096x1024_S128x1024_1_0_0_1_n_n.contr.Idx) : (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-- The product of a [128, 4096] by a [4096, 1024] array into a zero accumulator, at `(p, n)`: the sum over the contracted axis. -/
theorem matmul_down_apply (lhs : FVec Ideal S128x4096 .bf16) (rhs : FVec Ideal S4096x1024 .bf16) (p : Fin 128) (n : Fin 1024) :
    matmul dot_S128x4096_S4096x1024_S128x1024_1_0_0_1_n_n none lhs rhs (constant S128x1024 .f32 0x00000000#32) (ix2 p n) = ∑ k : Fin 4096, lhs (ix2 p k) * rhs (ix2 k n) := by
  simp only [matmul]
  rw [Ideal.matmul_constant_zero_apply, ← Equiv.sum_comp (ValueIdx.contrEquiv1 dot_S128x4096_S4096x1024_S128x1024_1_0_0_1_n_n 4096 rfl rfl).symm]
  refine Finset.sum_congr rfl fun k _ => ?_
  have hk := ValueIdx.contrEquiv1_symm_val dot_S128x4096_S4096x1024_S128x1024_1_0_0_1_n_n 4096 rfl rfl k
  have el : dot_S128x4096_S4096x1024_S128x1024_1_0_0_1_n_n.lhsIdx (ix2 p n) ((ValueIdx.contrEquiv1 dot_S128x4096_S4096x1024_S128x1024_1_0_0_1_n_n 4096 rfl rfl).symm k) = ix2 p k := funext fun a => Fin.ext (by
    match a with
    | ⟨0, _⟩ => exact lhs_down_0 _ _
    | ⟨1, _⟩ => exact (lhs_down_1 _ _).trans hk)
  have er : dot_S128x4096_S4096x1024_S128x1024_1_0_0_1_n_n.rhsIdx (ix2 p n) ((ValueIdx.contrEquiv1 dot_S128x4096_S4096x1024_S128x1024_1_0_0_1_n_n 4096 rfl rfl).symm k) = ix2 k n := funext fun a => Fin.ext (by
    match a with
    | ⟨0, _⟩ => exact (rhs_down_0 _ _).trans hk
    | ⟨1, _⟩ => exact rhs_down_1 _ _)
  rw [el, er]

/-! ## The body's values -/

/-- The first layer norm scaled by the gate column, as vector operations. -/
theorem pay2_eq (v0 v2 : Vec Ideal S128x1024 .f32) (v16 v27 : Vec Ideal S1024 .f32) (v31 : Vec Ideal S128x1 .f32) :
    k0_pay2 (F := Ideal) v0 v2 v16 v27 v31
      = mulf (broadcastTo S128x1024 (shapeCast S128x1 v31 shapeCasts_S128x1_S128x1) broadcasts_S128x1_S128x1024)
          (lnVec v16 v27 (addf (shapeCast S128x1024 v0 shapeCasts_S128x1024_S128x1024) (shapeCast S128x1024 v2 shapeCasts_S128x1024_S128x1024))) := rfl

/-- At `(p, q)`: the gate weight of row `p` times the layer norm of row `p` of the sum of the two blocks. -/
theorem pay2_apply (v0 v2 : Vec Ideal S128x1024 .f32) (v16 v27 : Vec Ideal S1024 .f32) (v31 : Vec Ideal S128x1 .f32)
    (p : Fin 128) (q : Fin 1024) :
    k0_pay2 (F := Ideal) v0 v2 v16 v27 v31 (ix2 p q)
      = v31 (ix2 p (0 : Fin 1)) * lnRsqrt (fun k => v16 (ix1 k)) (fun k => v27 (ix1 k)) (fun k => v0 (ix2 p k) + v2 (ix2 p k)) q := by
  rw [pay2_eq]
  simp only [mulf_apply, broadcastTo_col_apply, lnVec_apply, Idealize.ShloMosaic.shapeCast_self, addf_apply]

/-- The first matrix product at `(p, n)`: the sum over `k` of the scaled layer norm at `(p, k)` times W1 at `(k, n)`. -/
theorem pay3_apply (v0 v2 : Vec Ideal S128x1024 .f32) (v16 v27 : Vec Ideal S1024 .f32) (v31 : Vec Ideal S128x1 .f32)
    (v36 : Vec Ideal S1024x4096 .bf16) (p : Fin 128) (n : Fin 4096) :
    k0_pay3 (F := Ideal) v0 v2 v16 v27 v31 v36 (ix2 p n)
      = ∑ k : Fin 1024, k0_pay2 (F := Ideal) v0 v2 v16 v27 v31 (ix2 p k) * v36 (ix2 k n) := by
  unfold k0_pay3
  rw [matmul_up_apply]
  simp only [truncf_apply, Idealize.ShloMosaic.shapeCast_self]

/-- The first bias row broadcast down the columns, at `(p, n)`. -/
theorem pay4_apply (v39 : Vec Ideal S4096 .f32) (p : Fin 128) (n : Fin 4096) :
    k0_pay4 (F := Ideal) v39 (ix2 p n) = v39 (ix1 n) := by
  unfold k0_pay4
  exact broadcastTo_row_apply v39 _ _ p n

/-- The stored value as vector operations: the second layer norm of the residual sum. -/
theorem pay1_eq (v34 : FVec Ideal S128x1024 .f32) (v38 v41 : FVec Ideal S128x4096 .f32) (v46 : Vec Ideal S4096x1024 .bf16)
    (v49 v65 v76 : Vec Ideal S1024 .f32) :
    k0_pay1 (F := Ideal) v34 v38 v41 v46 v49 v65 v76
      = lnVec v65 v76 (addf v34 (addf
          (matmul dot_S128x4096_S4096x1024_S128x1024_1_0_0_1_n_n none
            (truncf .bf16 (maximumf (addf v38 v41) (broadcast S128x4096 (Scalar.ofBits .f32 0x00000000#32))) bitsLt_bf16_f32)
            (shapeCast S4096x1024 v46 shapeCasts_S4096x1024_S4096x1024 : FVec Ideal S4096x1024 .bf16) (constant S128x1024 .f32 0x00000000#32))
          (broadcastTo S128x1024 (shapeCast S1x1024 v49 shapeCasts_S1024_S1x1024) broadcasts_S1x1024_S128x1024))) := rfl

/-- The residual sum at `(p, k)`. -/
theorem resid_apply (v34 : FVec Ideal S128x1024 .f32) (v38 v41 : FVec Ideal S128x4096 .f32) (v46 : Vec Ideal S4096x1024 .bf16)
    (v49 : Vec Ideal S1024 .f32) (p : Fin 128) (k : Fin 1024) :
    addf v34 (addf
        (matmul dot_S128x4096_S4096x1024_S128x1024_1_0_0_1_n_n none
          (truncf .bf16 (maximumf (addf v38 v41) (broadcast S128x4096 (Scalar.ofBits .f32 0x00000000#32))) bitsLt_bf16_f32)
          (shapeCast S4096x1024 v46 shapeCasts_S4096x1024_S4096x1024 : FVec Ideal S4096x1024 .bf16) (constant S128x1024 .f32 0x00000000#32))
        (broadcastTo S128x1024 (shapeCast S1x1024 v49 shapeCasts_S1024_S1x1024) broadcasts_S1x1024_S128x1024)) (ix2 p k)
      = v34 (ix2 p k) + ((∑ n : Fin 4096, max (v38 (ix2 p n) + v41 (ix2 p n)) 0 * v46 (ix2 n k)) + v49 (ix1 k)) := by
  simp only [addf_apply]
  rw [matmul_down_apply, broadcastTo_row_apply]
  simp only [truncf_apply, maximumf_apply, addf_apply, broadcast_apply, Idealize.ShloMosaic.shapeCast_self, Ideal.ofBits_def,
    Ideal.ofBits_zero_f32]

/-- The block's entry at row `p`, column `q`, as the row function of row `p`. -/
theorem pay_row (v0 v2 : Vec Ideal S128x1024 .f32) (v16 v27 : Vec Ideal S1024 .f32) (v31 : Vec Ideal S128x1 .f32)
    (v36 : Vec Ideal S1024x4096 .bf16) (v39 : Vec Ideal S4096 .f32) (v46 : Vec Ideal S4096x1024 .bf16)
    (v49 v65 v76 : Vec Ideal S1024 .f32) (p : Fin 128) (q : Fin 1024) :
    k0_pay1 (F := Ideal) (k0_pay2 v0 v2 v16 v27 v31) (k0_pay3 v0 v2 v16 v27 v31 v36) (k0_pay4 v39) v46 v49 v65 v76 (ix2 p q)
      = rowOutRsqrt (fun k => v16 (ix1 k)) (fun k => v27 (ix1 k)) (fun k => v65 (ix1 k)) (fun k => v76 (ix1 k))
          (fun k n => v36 (ix2 k n)) (fun n => v39 (ix1 n)) (fun n h => v46 (ix2 n h)) (fun h => v49 (ix1 h))
          (v31 (ix2 p (0 : Fin 1))) (fun k => v0 (ix2 p k) + v2 (ix2 p k)) q := by
  rw [pay1_eq, lnVec_apply]
  simp only [resid_apply, pay3_apply, pay4_apply, pay2_apply]
  rfl

end Cert.KernelIdeal.Row

end
-- ==== Proof.KernelHost.lean ====
/-
  What the region finds in the buffers the operations before it write.

  Before the region the program views the two [512, 36, 1024] inputs as [18432, 1024] and the [512, 36] gate weights
  as a column [18432, 1]: flat row 36·b + s is row (b, s), because both views list the entries in the same row-major
  order. It also narrows the two weight matrices to a sixteen-bit format, which changes no value on the extended
  reals. The gate weights themselves are what the earlier operations left in their buffer; they are not opened here.
-/
import proofs.«165265_j77592879170023_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The flat view of the first input, as an array. -/
theorem v40_eq (c : Dev nD) :
    V (F := Ideal) m c main_v40
      = (fun i => shapeCast S18432x1024 (m ((c.tc : Thread nD τ).loc main_arg0) : S512x36x1024.Idx → EReal) shapeCasts_S512x36x1024_S18432x1024 i) := by
  dsimp only [Gen.V, Gen.V0]
  simp only [Gen.hostOps0, Gen.hostOps0_1, Gen.hostOps0_2, List.flatten_cons, List.flatten_nil, List.append_nil, List.cons_append,
    List.nil_append]
  after_results_simp
  rfl

/-- The flat view of the second input, as an array. -/
theorem v41_eq (c : Dev nD) :
    V (F := Ideal) m c main_v41
      = (fun i => shapeCast S18432x1024 (m ((c.tc : Thread nD τ).loc main_arg1) : S512x36x1024.Idx → EReal) shapeCasts_S512x36x1024_S18432x1024 i) := by
  dsimp only [Gen.V, Gen.V0]
  simp only [Gen.hostOps0, Gen.hostOps0_1, Gen.hostOps0_2, List.flatten_cons, List.flatten_nil, List.append_nil, List.cons_append,
    List.nil_append]
  after_results_simp
  rfl

/-- The column view of the gate weights, as an array: the same view of whatever the gate-weight buffer holds. Both
    sides are buffers after the same operations, so they unfold to the same term and that term is never named. -/
theorem v42_eq (c : Dev nD) :
    V (F := Ideal) m c main_v42
      = (fun i => shapeCast S18432x1 (V (F := Ideal) m c main_v39 : S512x36.Idx → EReal) shapeCasts_S512x36_S18432x1 i) := by
  dsimp only [Gen.V, Gen.V0]
  simp only [Gen.hostOps0, Gen.hostOps0_1, Gen.hostOps0_2, List.flatten_cons, List.flatten_nil, List.append_nil, List.cons_append,
    List.nil_append]
  after_results_simp
  rfl

/-- The narrowed first weight matrix holds the same values: narrowing is the identity on the extended reals. -/
theorem v43_eq (c : Dev nD) :
    (V (F := Ideal) m c main_v43 : S1024x4096.Idx → EReal) = (m ((c.tc : Thread nD τ).loc main_arg8) : S1024x4096.Idx → EReal) := by
  dsimp only [Gen.V, Gen.V0]
  simp only [Gen.hostOps0, Gen.hostOps0_1, Gen.hostOps0_2, List.flatten_cons, List.flatten_nil, List.append_nil, List.cons_append,
    List.nil_append]
  after_results_simp
  rfl

/-- The narrowed second weight matrix likewise. -/
theorem v44_eq (c : Dev nD) :
    (V (F := Ideal) m c main_v44 : S4096x1024.Idx → EReal) = (m ((c.tc : Thread nD τ).loc main_arg10) : S4096x1024.Idx → EReal) := by
  dsimp only [Gen.V, Gen.V0]
  simp only [Gen.hostOps0, Gen.hostOps0_1, Gen.hostOps0_2, List.flatten_cons, List.flatten_nil, List.append_nil, List.cons_append,
    List.nil_append]
  after_results_simp
  rfl

/-- The first input viewed flat: row 36·b + s is row (b, s). -/
theorem v40_apply (c : Dev nD) (b : Fin 512) (s : Fin 36) (k : Fin 1024) (r : Fin 18432) (hr : r.val = 36 * b.val + s.val) :
    V (F := Ideal) m c main_v40 (ix2 r k) = m ((c.tc : Thread nD τ).loc main_arg0) (ix3 b s k) := by
  rw [v40_eq]
  refine shapeCast_apply _ _ (ix2 r k) (ix3 b s k) ?_
  rw [Shape.rowMajor_val_three, Shape.rowMajor_val_two]
  show (b.val * 36 + s.val) * 1024 + k.val = r.val * 1024 + k.val
  omega

/-- The second input viewed flat, likewise. -/
theorem v41_apply (c : Dev nD) (b : Fin 512) (s : Fin 36) (k : Fin 1024) (r : Fin 18432) (hr : r.val = 36 * b.val + s.val) :
    V (F := Ideal) m c main_v41 (ix2 r k) = m ((c.tc : Thread nD τ).loc main_arg1) (ix3 b s k) := by
  rw [v41_eq]
  refine shapeCast_apply _ _ (ix2 r k) (ix3 b s k) ?_
  rw [Shape.rowMajor_val_three, Shape.rowMajor_val_two]
  show (b.val * 36 + s.val) * 1024 + k.val = r.val * 1024 + k.val
  omega

/-- The gate weights viewed as a column: entry 36·b + s is the weight at (b, s). -/
theorem v42_apply (c : Dev nD) (b : Fin 512) (s : Fin 36) (z : Fin 1) (r : Fin 18432) (hr : r.val = 36 * b.val + s.val) :
    V (F := Ideal) m c main_v42 (ix2 r z) = V (F := Ideal) m c main_v39 (ix2 b s) := by
  rw [v42_eq]
  refine shapeCast_apply _ _ (ix2 r z) (ix2 b s) ?_
  have hz : z.val = 0 := by omega
  rw [Shape.rowMajor_val_two, Shape.rowMajor_val_two]
  show b.val * 36 + s.val = r.val * 1 + z.val
  omega

/-- The first weight matrix narrowed: the same values. -/
theorem v43_apply (c : Dev nD) (k : Fin 1024) (n : Fin 4096) :
    V (F := Ideal) m c main_v43 (ix2 k n) = m ((c.tc : Thread nD τ).loc main_arg8) (ix2 k n) := congrFun (v43_eq m c) (ix2 k n)

/-- The second weight matrix narrowed: the same values. -/
theorem v44_apply (c : Dev nD) (n : Fin 4096) (h : Fin 1024) :
    V (F := Ideal) m c main_v44 (ix2 n h) = m ((c.tc : Thread nD τ).loc main_arg10) (ix2 n h) := congrFun (v44_eq m c) (ix2 n h)

end Cert.KernelIdeal.Host

end
-- ==== Proof.KernelArr.lean ====
/-
  The kernel program's two results after its run, as functions of the argument arrays.

  The region's output array is flat, [18432, 1024]: grid point `t` writes rows 128·t … 128·t + 127, and row `r` of the
  flat arrays is row (r / 36, r % 36) of the [512, 36, 1024] arguments. Each block entry is the row function of its own
  row (Proof/KernelRow.lean), the 144 blocks tile the array, and the one operation after the region views the flat
  array as [512, 36, 1024] again. So the first result at (b, s, h) is the row function of row (b, s) at column `h`.
  The gate weight of a row and the second result are what the operations before the region leave in their buffers;
  they are carried as those buffers' contents and not opened here.
-/
import proofs.«165265_j77592879170023_1_alg».proof.Proof.Gen.KernelIdeal.Frame
import proofs.«165265_j77592879170023_1_alg».proof.Proof.KernelRow
import proofs.«165265_j77592879170023_1_alg».proof.Proof.KernelHost
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.RowSpec

variable (m : (ℓ : Loc nD τ sig) → Buf (Elt Ideal) ℓ) (ρ : Dev nD → PrngReg)

/-- The first argument array, named at its literal type (so that its entries add as extended reals). -/
abbrev arr0 (c : Dev nD) : Vec Ideal S512x36x1024 .f32 := m ((c.tc : Thread nD τ).loc main_arg0)
/-- The second argument array, likewise. -/
abbrev arr1 (c : Dev nD) : Vec Ideal S512x36x1024 .f32 := m ((c.tc : Thread nD τ).loc main_arg1)

/-- The first result at (b, s, h): the row function of row (b, s) of the arguments, with the gate weight the
    operations before the region leave at (b, s). -/
def outAt (c : Dev nD) (b : Fin 512) (s : Fin 36) (h : Fin 1024) : EReal :=
  rowOutRsqrt (fun k => m ((c.tc : Thread nD τ).loc main_arg4) (ix1 k)) (fun k => m ((c.tc : Thread nD τ).loc main_arg5) (ix1 k))
    (fun k => m ((c.tc : Thread nD τ).loc main_arg6) (ix1 k)) (fun k => m ((c.tc : Thread nD τ).loc main_arg7) (ix1 k))
    (fun k n => m ((c.tc : Thread nD τ).loc main_arg8) (ix2 k n)) (fun n => m ((c.tc : Thread nD τ).loc main_arg9) (ix1 n))
    (fun n h' => m ((c.tc : Thread nD τ).loc main_arg10) (ix2 n h')) (fun h' => m ((c.tc : Thread nD τ).loc main_arg11) (ix1 h'))
    (V (F := Ideal) m c main_v39 (ix2 b s))
    (fun k => arr0 m c (ix3 b s k) + arr1 m c (ix3 b s k)) h

/-! ## One grid point's block of the flat result -/

/-- The zero offsets of a whole-block rectangle, in the two spellings the body's accesses use. -/
theorem zeros2 : (![0, 0] : Fin 2 → Nat) = fun _ => 0 := funext fun a => by fin_cases a <;> rfl
theorem zeros1 : (![0] : Fin 1 → Nat) = fun _ => 0 := funext fun a => by fin_cases a <;> rfl

/-- The batch coordinate of a flat row: row `r` of the flat arrays is row (r / 36, r % 36) of the arguments. -/
def rowB (r : Fin 18432) : Fin 512 := ⟨r.val / 36, by have := r.isLt; omega⟩
/-- Its sequence coordinate. -/
def rowS (r : Fin 18432) : Fin 36 := ⟨r.val % 36, Nat.mod_lt _ (by decide)⟩

/-- A flat row is 36 times its batch coordinate plus its sequence coordinate. -/
theorem row_split (r : Fin 18432) : r.val = 36 * (rowB r).val + (rowS r).val := by
  show r.val = 36 * (r.val / 36) + r.val % 36
  omega

/-- The flat result [18432, 1024]: at row `r`, column `h`, the row function of row (r / 36, r % 36). -/
def flatOut (c : Dev nD) : Vec Ideal S18432x1024 .f32 := fun i => outAt m c (rowB (i 0)) (rowS (i 0)) (i 1)

/-- The index maps, decided over the grid: the three row-blocked inputs and the output are at block (t, 0) at
    point `t`; every parameter window is whole, at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-! ### The windows' blocks at a point, named at their literal types and read at an index -/

/-- The two row-blocked inputs' blocks at point `t`: rows 128·t … 128·t + 127 of the flat arrays. -/
abbrev blk0 (c : Dev nD) (t : Fin cfg0.N) : Vec Ideal S128x1024 .f32 := iblk m c 0 t
abbrev blk1 (c : Dev nD) (t : Fin cfg0.N) : Vec Ideal S128x1024 .f32 := iblk m c 1 t
/-- The gate weights' block: entries 128·t … 128·t + 127 of the column. -/
abbrev blkW (c : Dev nD) (t : Fin cfg0.N) : Vec Ideal S128x1 .f32 := iblk m c 2 t
/-- The parameters' blocks: each is its whole array. -/
abbrev blkG1 (c : Dev nD) (t : Fin cfg0.N) : Vec Ideal S1024 .f32 := iblk m c 3 t
abbrev blkB1 (c : Dev nD) (t : Fin cfg0.N) : Vec Ideal S1024 .f32 := iblk m c 4 t
abbrev blkG2 (c : Dev nD) (t : Fin cfg0.N) : Vec Ideal S1024 .f32 := iblk m c 5 t
abbrev blkB2 (c : Dev nD) (t : Fin cfg0.N) : Vec Ideal S1024 .f32 := iblk m c 6 t
abbrev blkW1 (c : Dev nD) (t : Fin cfg0.N) : Vec Ideal S1024x4096 .bf16 := iblk m c 7 t
abbrev blkC1 (c : Dev nD) (t : Fin cfg0.N) : Vec Ideal S4096 .f32 := iblk m c 8 t
abbrev blkW2 (c : Dev nD) (t : Fin cfg0.N) : Vec Ideal S4096x1024 .bf16 := iblk m c 9 t
abbrev blkC2 (c : Dev nD) (t : Fin cfg0.N) : Vec Ideal S1024 .f32 := iblk m c 10 t

/-- The first norm's gain, as the region finds it, is the argument. -/
theorem blkG1_apply (c : Dev nD) (t : Fin cfg0.N) (k : Fin 1024) :
    blkG1 m c t (ix1 k) = m ((c.tc : Thread nD τ).loc main_arg4) (ix1 k) := by
  obtain ⟨-, -, -, -, -, -, e, -, -, -, -, -, -, -, -, -, -, -⟩ := idx_facts t
  refine Eq.trans ?_ (congrFun (V_main_arg4 m c) (ix1 k))
  show V (F := Ideal) m c main_arg4 (((cfg0.win 3).blk t).view.emb (ix1 k)) = V (F := Ideal) m c main_arg4 (ix1 k)
  refine congrArg (V (F := Ideal) m c main_arg4) (funext fun a => Fin.ext ?_)
  match a with
  | ⟨0, _⟩ => show win0_3.index t (0 : Fin 1) * 1024 + 1 * k.val = k.val; rw [e]; omega

/-- The first norm's bias, as the region finds it, is the argument. -/
theorem blkB1_apply (c : Dev nD) (t : Fin cfg0.N) (k : Fin 1024) :
    blkB1 m c t (ix1 k) = m ((c.tc : Thread nD τ).loc main_arg5) (ix1 k) := by
  obtain ⟨-, -, -, -, -, -, -, e, -, -, -, -, -, -, -, -, -, -⟩ := idx_facts t
  refine Eq.trans ?_ (congrFun (V_main_arg5 m c) (ix1 k))
  show V (F := Ideal) m c main_arg5 (((cfg0.win 4).blk t).view.emb (ix1 k)) = V (F := Ideal) m c main_arg5 (ix1 k)
  refine congrArg (V (F := Ideal) m c main_arg5) (funext fun a => Fin.ext ?_)
  match a with
  | ⟨0, _⟩ => show win0_4.index t (0 : Fin 1) * 1024 + 1 * k.val = k.val; rw [e]; omega

/-- The second norm's gain, as the region finds it, is the argument. -/
theorem blkG2_apply (c : Dev nD) (t : Fin cfg0.N) (k : Fin 1024) :
    blkG2 m c t (ix1 k) = m ((c.tc : Thread nD τ).loc main_arg6) (ix1 k) := by
  obtain ⟨-, -, -, -, -, -, -, -, e, -, -, -, -, -, -, -, -, -⟩ := idx_facts t
  refine Eq.trans ?_ (congrFun (V_main_arg6 m c) (ix1 k))
  show V (F := Ideal) m c main_arg6 (((cfg0.win 5).blk t).view.emb (ix1 k)) = V (F := Ideal) m c main_arg6 (ix1 k)
  refine congrArg (V (F := Ideal) m c main_arg6) (funext fun a => Fin.ext ?_)
  match a with
  | ⟨0, _⟩ => show win0_5.index t (0 : Fin 1) * 1024 + 1 * k.val = k.val; rw [e]; omega

/-- The second norm's bias, as the region finds it, is the argument. -/
theorem blkB2_apply (c : Dev nD) (t : Fin cfg0.N) (k : Fin 1024) :
    blkB2 m c t (ix1 k) = m ((c.tc : Thread nD τ).loc main_arg7) (ix1 k) := by
  obtain ⟨-, -, -, -, -, -, -, -, -, e, -, -, -, -, -, -, -, -⟩ := idx_facts t
  refine Eq.trans ?_ (congrFun (V_main_arg7 m c) (ix1 k))
  show V (F := Ideal) m c main_arg7 (((cfg0.win 6).blk t).view.emb (ix1 k)) = V (F := Ideal) m c main_arg7 (ix1 k)
  refine congrArg (V (F := Ideal) m c main_arg7) (funext fun a => Fin.ext ?_)
  match a with
  | ⟨0, _⟩ => show win0_6.index t (0 : Fin 1) * 1024 + 1 * k.val = k.val; rw [e]; omega

/-- The hidden layer's bias, as the region finds it, is the argument. -/
theorem blkC1_apply (c : Dev nD) (t : Fin cfg0.N) (k : Fin 4096) :
    blkC1 m c t (ix1 k) = m ((c.tc : Thread nD τ).loc main_arg9) (ix1 k) := by
  obtain ⟨-, -, -, -, -, -, -, -, -, -, -, -, e, -, -, -, -, -⟩ := idx_facts t
  refine Eq.trans ?_ (congrFun (V_main_arg9 m c) (ix1 k))
  show V (F := Ideal) m c main_arg9 (((cfg0.win 8).blk t).view.emb (ix1 k)) = V (F := Ideal) m c main_arg9 (ix1 k)
  refine congrArg (V (F := Ideal) m c main_arg9) (funext fun a => Fin.ext ?_)
  match a with
  | ⟨0, _⟩ => show win0_8.index t (0 : Fin 1) * 4096 + 1 * k.val = k.val; rw [e]; omega

/-- The output layer's bias, as the region finds it, is the argument. -/
theorem blkC2_apply (c : Dev nD) (t : Fin cfg0.N) (k : Fin 1024) :
    blkC2 m c t (ix1 k) = m ((c.tc : Thread nD τ).loc main_arg11) (ix1 k) := by
  obtain ⟨-, -, -, -, -, -, -, -, -, -, -, -, -, -, -, e, -, -⟩ := idx_facts t
  refine Eq.trans ?_ (congrFun (V_main_arg11 m c) (ix1 k))
  show V (F := Ideal) m c main_arg11 (((cfg0.win 10).blk t).view.emb (ix1 k)) = V (F := Ideal) m c main_arg11 (ix1 k)
  refine congrArg (V (F := Ideal) m c main_arg11) (funext fun a => Fin.ext ?_)
  match a with
  | ⟨0, _⟩ => show win0_10.index t (0 : Fin 1) * 1024 + 1 * k.val = k.val; rw [e]; omega

/-- The first weight matrix's block is the narrowed matrix the region finds. -/
theorem blkW1_apply (c : Dev nD) (t : Fin cfg0.N) (k : Fin 1024) (n : Fin 4096) :
    blkW1 m c t (ix2 k n) = V (F := Ideal) m c main_v43 (ix2 k n) := by
  obtain ⟨-, -, -, -, -, -, -, -, -, -, e0, e1, -, -, -, -, -, -⟩ := idx_facts t
  show V (F := Ideal) m c main_v43 (((cfg0.win 7).blk t).view.emb (ix2 k n)) = V (F := Ideal) m c main_v43 (ix2 k n)
  refine congrArg (V (F := Ideal) m c main_v43) (funext fun a => Fin.ext ?_)
  match a with
  | ⟨0, _⟩ => show win0_7.index t (0 : Fin 2) * 1024 + 1 * k.val = k.val; rw [e0]; omega
  | ⟨1, _⟩ => show win0_7.index t (1 : Fin 2) * 4096 + 1 * n.val = n.val; rw [e1]; omega

/-- The second weight matrix's block, likewise. -/
theorem blkW2_apply (c : Dev nD) (t : Fin cfg0.N) (k : Fin 4096) (n : Fin 1024) :
    blkW2 m c t (ix2 k n) = V (F := Ideal) m c main_v44 (ix2 k n) := by
  obtain ⟨-, -, -, -, -, -, -, -, -, -, -, -, -, e0, e1, -, -, -⟩ := idx_facts t
  show V (F := Ideal) m c main_v44 (((cfg0.win 9).blk t).view.emb (ix2 k n)) = V (F := Ideal) m c main_v44 (ix2 k n)
  refine congrArg (V (F := Ideal) m c main_v44) (funext fun a => Fin.ext ?_)
  match a with
  | ⟨0, _⟩ => show win0_9.index t (0 : Fin 2) * 4096 + 1 * k.val = k.val; rw [e0]; omega
  | ⟨1, _⟩ => show win0_9.index t (1 : Fin 2) * 1024 + 1 * n.val = n.val; rw [e1]; omega

/-- Row `p` of the first input's block at point `t` is row 128·t + p of its flat view. -/
theorem blk0_apply (c : Dev nD) (t : Fin cfg0.N) (p : Fin 128) (k : Fin 1024) (r : Fin 18432)
    (hr : r.val = 128 * t.val + p.val) :
    blk0 m c t (ix2 p k) = V (F := Ideal) m c main_v40 (ix2 r k) := by
  obtain ⟨e0, e1, -, -, -, -, -, -, -, -, -, -, -, -, -, -, -, -⟩ := idx_facts t
  show V (F := Ideal) m c main_v40 (((cfg0.win 0).blk t).view.emb (ix2 p k)) = V (F := Ideal) m c main_v40 (ix2 r k)
  refine congrArg (V (F := Ideal) m c main_v40) (funext fun a => Fin.ext ?_)
  match a with
  | ⟨0, _⟩ => show win0_0.index t (0 : Fin 2) * 128 + 1 * p.val = r.val; rw [e0, hr]; omega
  | ⟨1, _⟩ => show win0_0.index t (1 : Fin 2) * 1024 + 1 * k.val = k.val; rw [e1]; omega

/-- The same for the second input. -/
theorem blk1_apply (c : Dev nD) (t : Fin cfg0.N) (p : Fin 128) (k : Fin 1024) (r : Fin 18432)
    (hr : r.val = 128 * t.val + p.val) :
    blk1 m c t (ix2 p k) = V (F := Ideal) m c main_v41 (ix2 r k) := by
  obtain ⟨-, -, e0, e1, -, -, -, -, -, -, -, -, -, -, -, -, -, -⟩ := idx_facts t
  show V (F := Ideal) m c main_v41 (((cfg0.win 1).blk t).view.emb (ix2 p k)) = V (F := Ideal) m c main_v41 (ix2 r k)
  refine congrArg (V (F := Ideal) m c main_v41) (funext fun a => Fin.ext ?_)
  match a with
  | ⟨0, _⟩ => show win0_1.index t (0 : Fin 2) * 128 + 1 * p.val = r.val; rw [e0, hr]; omega
  | ⟨1, _⟩ => show win0_1.index t (1 : Fin 2) * 1024 + 1 * k.val = k.val; rw [e1]; omega

/-- Entry `p` of the gate weights' block at point `t` is entry 128·t + p of the column. -/
theorem blkW_apply (c : Dev nD) (t : Fin cfg0.N) (p : Fin 128) (k : Fin 1) (r : Fin 18432)
    (hr : r.val = 128 * t.val + p.val) :
    blkW m c t (ix2 p k) = V (F := Ideal) m c main_v42 (ix2 r k) := by
  obtain ⟨-, -, -, -, e0, e1, -, -, -, -, -, -, -, -, -, -, -, -⟩ := idx_facts t
  show V (F := Ideal) m c main_v42 (((cfg0.win 2).blk t).view.emb (ix2 p k)) = V (F := Ideal) m c main_v42 (ix2 r k)
  refine congrArg (V (F := Ideal) m c main_v42) (funext fun a => Fin.ext ?_)
  match a with
  | ⟨0, _⟩ => show win0_2.index t (0 : Fin 2) * 128 + 1 * p.val = r.val; rw [e0, hr]; omega
  | ⟨1, _⟩ => show win0_2.index t (1 : Fin 2) * 1 + 1 * k.val = k.val; rw [e1]; omega

/-! ### The block the body leaves, entry by entry -/

/-- The row function depends on its arguments entry by entry. -/
theorem rowOut_congr {g1 g1' b1 b1' g2 g2' b2 b2' : Row} {W1 W1' : Fin 1024 → Fin 4096 → EReal} {c1 c1' : Fin 4096 → EReal}
    {W2 W2' : Fin 4096 → Fin 1024 → EReal} {c2 c2' : Row} {w w' : EReal} {x x' : Row}
    (hg1 : ∀ k, g1 k = g1' k) (hb1 : ∀ k, b1 k = b1' k) (hg2 : ∀ k, g2 k = g2' k) (hb2 : ∀ k, b2 k = b2' k)
    (hW1 : ∀ k n, W1 k n = W1' k n) (hc1 : ∀ n, c1 n = c1' n) (hW2 : ∀ n h, W2 n h = W2' n h) (hc2 : ∀ h, c2 h = c2' h)
    (hw : w = w') (hx : ∀ k, x k = x' k) :
    rowOutRsqrt g1 b1 g2 b2 W1 c1 W2 c2 w x = rowOutRsqrt g1' b1' g2' b2' W1' c1' W2' c2' w' x' := by
  obtain rfl : g1 = g1' := funext hg1
  obtain rfl : b1 = b1' := funext hb1
  obtain rfl : g2 = g2' := funext hg2
  obtain rfl : b2 = b2' := funext hb2
  obtain rfl : W1 = W1' := funext fun k => funext (hW1 k)
  obtain rfl : c1 = c1' := funext hc1
  obtain rfl : W2 = W2' := funext fun n => funext (hW2 n)
  obtain rfl : c2 = c2' := funext hc2
  obtain rfl : x = x' := funext hx
  rw [hw]

/-- The row function of row `p` of the blocks at point `t` is the row function of flat row 128·t + p of the
    arguments: the parameters' blocks are the parameters, the narrowed weight matrices hold the same values, and row
    `p` of a row-blocked input's block is that flat row, which is row (r / 36, r % 36) of the argument. -/
theorem block_entry (c : Dev nD) (t : Fin cfg0.N) (p : Fin 128) (q : Fin 1024) (r : Fin 18432)
    (hr : r.val = 128 * t.val + p.val) :
    rowOutRsqrt (fun k => blkG1 m c t (ix1 k)) (fun k => blkB1 m c t (ix1 k)) (fun k => blkG2 m c t (ix1 k))
        (fun k => blkB2 m c t (ix1 k)) (fun k n => blkW1 m c t (ix2 k n)) (fun n => blkC1 m c t (ix1 n))
        (fun n h => blkW2 m c t (ix2 n h)) (fun h => blkC2 m c t (ix1 h))
        (blkW m c t (ix2 p (0 : Fin 1))) (fun k => blk0 m c t (ix2 p k) + blk1 m c t (ix2 p k)) q
      = outAt m c (rowB r) (rowS r) q := by
  unfold outAt
  exact congrFun (rowOut_congr (fun k => blkG1_apply m c t k) (fun k => blkB1_apply m c t k)
    (fun k => blkG2_apply m c t k) (fun k => blkB2_apply m c t k)
    (fun k n => (blkW1_apply m c t k n).trans (Cert.KernelIdeal.Host.v43_apply m c k n))
    (fun n => blkC1_apply m c t n)
    (fun n h => (blkW2_apply m c t n h).trans (Cert.KernelIdeal.Host.v44_apply m c n h))
    (fun h => blkC2_apply m c t h)
    ((blkW_apply m c t p 0 r hr).trans (Cert.KernelIdeal.Host.v42_apply m c (rowB r) (rowS r) 0 r (row_split r)))
    (fun k => congrArg₂ (· + ·)
      ((blk0_apply m c t p k r hr).trans (Cert.KernelIdeal.Host.v40_apply m c (rowB r) (rowS r) k r (row_split r)))
      ((blk1_apply m c t p k r hr).trans (Cert.KernelIdeal.Host.v41_apply m c (rowB r) (rowS r) k r (row_split r))))) q

/-- WHAT POINT `t` WRITES BACK is block `t` of the flat result: rows 128·t … 128·t + 127. -/
theorem flushed_eq (c : Dev nD) (t : Fin cfg0.N) :
    (dats m 0 c).flushed 11 t = ((cfg0.win 11).blk t).view.read (Elt Ideal) (flatOut m c) := by
  show (cfg0.win 11).cut (grid0.coords t) ((dats m 0 c).after 11 t) = _
  rw [after0_11]
  unfold out0_11
  rw [View.canon_unit_zero zeros2]
  simp only [View.ld_unit_zero (S := S128x1024) zeros2, View.ld_unit_zero (S := S128x1) zeros2,
    View.ld_unit_zero (S := S1024x4096) zeros2, View.ld_unit_zero (S := S4096x1024) zeros2,
    View.ld_unit_zero (S := S1024) zeros1, View.ld_unit_zero (S := S4096) zeros1]
  funext j
  obtain ⟨p, q, rfl⟩ : ∃ (p : Fin 128) (q : Fin 1024), j = ix2 p q := ⟨j 0, j 1, eq_ix2 j⟩
  obtain ⟨-, -, -, -, -, -, -, -, -, -, -, -, -, -, -, -, e0, e1⟩ := idx_facts t
  have ht : t.val < 144 := Nat.lt_of_lt_of_eq t.isLt N_0
  have hp : p.val < 128 := p.isLt
  have hemb : ((cfg0.win 11).blk t).view.emb (ix2 p q) = ix2 (⟨128 * t.val + p.val, by omega⟩ : Fin 18432) q := by
    funext a; apply Fin.ext
    match a with
    | ⟨0, _⟩ => show win0_11.index t (0 : Fin 2) * 128 + 1 * p.val = 128 * t.val + p.val; rw [e0]; omega
    | ⟨1, _⟩ => show win0_11.index t (1 : Fin 2) * 1024 + 1 * q.val = q.val; rw [e1]; omega
  show k0_pay1 (F := Ideal) (k0_pay2 (blk0 m c t) (blk1 m c t) (blkG1 m c t) (blkB1 m c t) (blkW m c t))
        (k0_pay3 (blk0 m c t) (blk1 m c t) (blkG1 m c t) (blkB1 m c t) (blkW m c t) (blkW1 m c t))
        (k0_pay4 (blkC1 m c t)) (blkW2 m c t) (blkC2 m c t) (blkG2 m c t) (blkB2 m c t) (ix2 p q)
      = flatOut m c (((cfg0.win 11).blk t).view.emb (ix2 p q))
  refine Eq.trans ?_ (congrArg (flatOut m c) hemb).symm
  refine (Cert.KernelIdeal.Row.pay_row (blk0 m c t) (blk1 m c t) (blkG1 m c t) (blkB1 m c t) (blkW m c t) (blkW1 m c t)
    (blkC1 m c t) (blkW2 m c t) (blkC2 m c t) (blkG2 m c t) (blkB2 m c t) p q).trans ?_
  exact block_entry m c t p q ⟨128 * t.val + p.val, by omega⟩ rfl

/-! ## The flat result after the region -/

/-- An index of the flat array is in point `t`'s block iff each coordinate is in the block's range on its axis. -/
theorem mem_blk (t : Fin cfg0.N) (i : S18432x1024.Idx) :
    i ∈ ((cfg0.win 11).blk t).view.set ↔ ∀ a : Fin 2, win0_11.index t a * S128x1024.size a ≤ (i a).val
      ∧ (i a).val < win0_11.index t a * S128x1024.size a + S128x1024.size a := by
  show i ∈ ((View.whole main_v45).slice (win0_11.rect t)).set ↔ _
  rw [View.set_slice_whole, Rect.mem_set_unit]
  exact Iff.rfl

/-- The 144 blocks tile the flat array: row `r` is in the block of point r / 128. -/
theorem cover (i : S18432x1024.Idx) :
    ∃ t : Fin cfg0.N, (cfg0.win 11).flush t = true ∧ i ∈ ((cfg0.win 11).blk t).view.set := by
  have hi0 : (i 0).val < 18432 := (i 0).isLt
  have hi1 : (i 1).val < 1024 := (i 1).isLt
  have hN : cfg0.N = 144 := N_0
  obtain ⟨t, ht⟩ : ∃ t : Fin cfg0.N, t.val = (i 0).val / 128 := ⟨⟨(i 0).val / 128, by rw [hN]; omega⟩, rfl⟩
  obtain ⟨-, -, -, -, -, -, -, -, -, -, -, -, -, -, -, -, e0, e1⟩ := idx_facts t
  refine ⟨t, flush0_11 t, ?_⟩
  rw [mem_blk]
  intro a
  match a with
  | ⟨0, _⟩ =>
    show win0_11.index t (0 : Fin 2) * 128 ≤ (i 0).val ∧ (i 0).val < win0_11.index t (0 : Fin 2) * 128 + 128
    rw [e0, ht]; omega
  | ⟨1, _⟩ =>
    show win0_11.index t (1 : Fin 2) * 1024 ≤ (i 1).val ∧ (i 1).val < win0_11.index t (1 : Fin 2) * 1024 + 1024
    rw [e1]; omega

/-- THE FLAT ARRAY after the region is the flat result. -/
theorem final (c : Dev nD) : (dats m 0 c).arrAt 11 cfg0.N = flatOut m c :=
  (dats m 0 c).arrAt_eq_of_cover 11 (flatOut m c) (fun t _ => flushed_eq m c t) cover

/-! ## After the region -/

/-- Flat row 36·b + s is row (b, s). -/
theorem rowB_flat (b : Fin 512) (s : Fin 36) (h : 36 * b.val + s.val < 18432) : rowB ⟨36 * b.val + s.val, h⟩ = b :=
  Fin.ext (by show (36 * b.val + s.val) / 36 = b.val; have := s.isLt; omega)
theorem rowS_flat (b : Fin 512) (s : Fin 36) (h : 36 * b.val + s.val < 18432) : rowS ⟨36 * b.val + s.val, h⟩ = s :=
  Fin.ext (by show (36 * b.val + s.val) % 36 = s.val; have := s.isLt; omega)

/-- THE FIRST RESULT: the one operation after the region views the flat result as [512, 36, 1024] again, and entry
    (b, s, h) of that view is entry (36·b + s, h) of the flat array. -/
theorem tail_v46 (c : Dev nD) :
    Pipeline.afterTail₀ cfgs (dats m) 0 (V0 m) [hostOps1] c main_v46
      = (fun i : S512x36x1024.Idx => outAt m c (i 0) (i 1) (i 2)) := by
  unfold Pipeline.afterTail₀
  show StableHlo.after hostOps1 _ (Proc.devRef .tc main_v46) = _
  after_results
  have hA : Pipeline.withArrays (cfgs 0).spec c (V0 m c) (fun w => (dats m 0 c).arrAt w (cfgs 0).N) (Proc.tc.devRef main_v45)
      = flatOut m c :=
    (Pipeline.withArrays_arr spec0 launch0.win.arr_inj c _ _ 11).trans (final m c)
  rw [hA]
  funext i
  obtain ⟨b, s, h, rfl⟩ : ∃ (b : Fin 512) (s : Fin 36) (h : Fin 1024), i = ix3 b s h := ⟨i 0, i 1, i 2, eq_ix3 i⟩
  have hb : b.val < 512 := b.isLt
  have hs : s.val < 36 := s.isLt
  have hr : 36 * b.val + s.val < 18432 := by omega
  show shapeCast S512x36x1024 (flatOut m c) shapeCasts_S18432x1024_S512x36x1024 (ix3 b s h) = outAt m c b s h
  refine (shapeCast_apply (flatOut m c) shapeCasts_S18432x1024_S512x36x1024 (ix3 b s h)
    (ix2 (⟨36 * b.val + s.val, hr⟩ : Fin 18432) h) ?_).trans ?_
  · rw [Shape.rowMajor_val_two, Shape.rowMajor_val_three]
    show (36 * b.val + s.val) * 1024 + h.val = (b.val * 36 + s.val) * 1024 + h.val
    omega
  · show outAt m c (rowB ⟨36 * b.val + s.val, hr⟩) (rowS ⟨36 * b.val + s.val, hr⟩) h = outAt m c b s h
    rw [rowB_flat b s hr, rowS_flat b s hr]

/-- THE SECOND RESULT is written before the region; nothing after the region writes it, and no window stages it. -/
theorem tail_v30 (c : Dev nD) :
    Pipeline.afterTail₀ cfgs (dats m) 0 (V0 m) [hostOps1] c main_v30 = V (F := Ideal) m c main_v30 := by
  unfold Pipeline.afterTail₀
  rw [StableHlo.after_of_forall_not_mem (b := Proc.devRef .tc main_v30) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v30 (by exact (by decide : ∀ w, Pipeline.arrRef spec0 w ≠ main_v30))]

/-- The kernel program's run with both results named and the arguments unchanged. -/
theorem run_named : θ_run (defs (F := Ideal)) (onTc (τ := τ) (main (F := Ideal))) ⟨m, fun _ => 0, ρ⟩ (fun r => ∀ c : Dev nD,
      r.2.mem ((c.tc : Thread nD τ).loc main_v46) = (fun i : S512x36x1024.Idx => outAt m c (i 0) (i 1) (i 2))
      ∧ r.2.mem ((c.tc : Thread nD τ).loc main_v30) = V (F := Ideal) m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  exact (θ_run defs _ _).mono (fun r h c =>
    ⟨((h c).2 main_v46 (Pipeline.mem_restRefs_of main_v46 (by decide) (by decide))).trans (tail_v46 m c),
      ((h c).2 main_v30 (Pipeline.mem_restRefs_of main_v30 (by decide) (by decide))).trans (tail_v30 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c),
      ((h c).1 10).trans (((dats m 0 c).arrAt_in 10 rfl _).trans ((A_eq m c 10).trans (V_main_arg11 m c)))⟩)
    (run_main m ρ)

end Cert.KernelIdeal.Arr

end
-- ==== Proof.RefRow.lean ====
/-
  The reference's first result, read at one entry.

  The entry at (b, s, h) of the reference's output depends on row (b, s) of the two inputs, on the gate weight at
  (b, s), and on the parameters, and it is the row function of Proof/RowSpec.lean (the quotient form) of that row
  at column `h`. The gate weight is carried as one function of the two gate inputs and is never opened.
-/
import proofs.«165265_j77592879170023_1_alg».proof.Proof.Gen.ReferenceIdeal.Read
import proofs.«165265_j77592879170023_1_alg».proof.Proof.RowSpec
import Idealize.ShloMosaic.Lib.ValueIdx
import Idealize.ShloMosaic.PureOps.Ideal.Laws

noncomputable section

namespace Cert.ReferenceIdeal.Row

open Idealize.ShloMosaic Idealize.ShloMosaic.ValueIdx Cert.ReferenceIdeal Cert.ReferenceIdeal.Read Cert.RowSpec

/-! ### The program's index functions at an index given by its coordinates -/

private theorem to_col_v5 (b : Fin 512) (s : Fin 36) (k : Fin 1024) : idx_main_v5 (ix3 b s k) = ix3 b s (0 : Fin 1) :=
  funext fun a => Fin.ext (by match a with | ⟨0, _⟩ => rfl | ⟨1, _⟩ => rfl | ⟨2, _⟩ => rfl)

private theorem to_col_v12 (b : Fin 512) (s : Fin 36) (k : Fin 1024) : idx_main_v12 (ix3 b s k) = ix3 b s (0 : Fin 1) :=
  funext fun a => Fin.ext (by match a with | ⟨0, _⟩ => rfl | ⟨1, _⟩ => rfl | ⟨2, _⟩ => rfl)

private theorem to_col_v20 (b : Fin 512) (s : Fin 36) (k : Fin 1024) : idx_main_v20 (ix3 b s k) = ix3 b s (0 : Fin 1) :=
  funext fun a => Fin.ext (by match a with | ⟨0, _⟩ => rfl | ⟨1, _⟩ => rfl | ⟨2, _⟩ => rfl)

private theorem to_col_v66 (b : Fin 512) (s : Fin 36) (k : Fin 1024) : idx_main_v66 (ix3 b s k) = ix3 b s (0 : Fin 1) :=
  funext fun a => Fin.ext (by match a with | ⟨0, _⟩ => rfl | ⟨1, _⟩ => rfl | ⟨2, _⟩ => rfl)

private theorem to_col_v82 (b : Fin 512) (s : Fin 36) (k : Fin 1024) : idx_main_v82 (ix3 b s k) = ix3 b s (0 : Fin 1) :=
  funext fun a => Fin.ext (by match a with | ⟨0, _⟩ => rfl | ⟨1, _⟩ => rfl | ⟨2, _⟩ => rfl)

private theorem to_col_v89 (b : Fin 512) (s : Fin 36) (k : Fin 1024) : idx_main_v89 (ix3 b s k) = ix3 b s (0 : Fin 1) :=
  funext fun a => Fin.ext (by match a with | ⟨0, _⟩ => rfl | ⟨1, _⟩ => rfl | ⟨2, _⟩ => rfl)

private theorem to_col_v97 (b : Fin 512) (s : Fin 36) (k : Fin 1024) : idx_main_v97 (ix3 b s k) = ix3 b s (0 : Fin 1) :=
  funext fun a => Fin.ext (by match a with | ⟨0, _⟩ => rfl | ⟨1, _⟩ => rfl | ⟨2, _⟩ => rfl)

private theorem row_v1 (b : Fin 512) (s : Fin 36) (k : Fin 1024) : idx_main_v1 (idx_main_v2 (ix3 b s (0 : Fin 1))) k = ix3 b s k :=
  funext fun a => Fin.ext (by match a with | ⟨0, _⟩ => rfl | ⟨1, _⟩ => rfl | ⟨2, _⟩ => rfl)

private theorem row_v8 (b : Fin 512) (s : Fin 36) (k : Fin 1024) : idx_main_v8 (idx_main_v9 (ix3 b s (0 : Fin 1))) k = ix3 b s k :=
  funext fun a => Fin.ext (by match a with | ⟨0, _⟩ => rfl | ⟨1, _⟩ => rfl | ⟨2, _⟩ => rfl)

private theorem row_v78 (b : Fin 512) (s : Fin 36) (k : Fin 1024) : idx_main_v78 (idx_main_v79 (ix3 b s (0 : Fin 1))) k = ix3 b s k :=
  funext fun a => Fin.ext (by match a with | ⟨0, _⟩ => rfl | ⟨1, _⟩ => rfl | ⟨2, _⟩ => rfl)

private theorem row_v85 (b : Fin 512) (s : Fin 36) (k : Fin 1024) : idx_main_v85 (idx_main_v86 (ix3 b s (0 : Fin 1))) k = ix3 b s k :=
  funext fun a => Fin.ext (by match a with | ⟨0, _⟩ => rfl | ⟨1, _⟩ => rfl | ⟨2, _⟩ => rfl)

private theorem gate_v65 (b : Fin 512) (s : Fin 36) : idx_main_v65 (ix3 b s (0 : Fin 1)) = ix2 b s :=
  funext fun a => Fin.ext (by match a with | ⟨0, _⟩ => rfl | ⟨1, _⟩ => rfl)

private theorem par_v14 (b : Fin 512) (s : Fin 36) (k : Fin 1024) : idx_main_v14 (idx_main_v15 (ix3 b s k)) = ix1 k :=
  funext fun a => Fin.ext (by match a with | ⟨0, _⟩ => rfl)

private theorem par_v22 (b : Fin 512) (s : Fin 36) (k : Fin 1024) : idx_main_v22 (idx_main_v23 (ix3 b s k)) = ix1 k :=
  funext fun a => Fin.ext (by match a with | ⟨0, _⟩ => rfl)

private theorem par_v74 (b : Fin 512) (s : Fin 36) (k : Fin 1024) : idx_main_v74 (idx_main_v75 (ix3 b s k)) = ix1 k :=
  funext fun a => Fin.ext (by match a with | ⟨0, _⟩ => rfl)

private theorem par_v91 (b : Fin 512) (s : Fin 36) (k : Fin 1024) : idx_main_v91 (idx_main_v92 (ix3 b s k)) = ix1 k :=
  funext fun a => Fin.ext (by match a with | ⟨0, _⟩ => rfl)

private theorem par_v99 (b : Fin 512) (s : Fin 36) (k : Fin 1024) : idx_main_v99 (idx_main_v100 (ix3 b s k)) = ix1 k :=
  funext fun a => Fin.ext (by match a with | ⟨0, _⟩ => rfl)

private theorem par_v69 (b : Fin 512) (s : Fin 36) (n : Fin 4096) : idx_main_v69 (idx_main_v70 (ix3 b s n)) = ix1 n :=
  funext fun a => Fin.ext (by match a with | ⟨0, _⟩ => rfl)

private theorem lhs_v68 (b : Fin 512) (s : Fin 36) (n : Fin 4096) (k : Fin 1024) : lidx_main_v68 (ix3 b s n) k = ix3 b s k :=
  funext fun a => Fin.ext (by match a with | ⟨0, _⟩ => rfl | ⟨1, _⟩ => rfl | ⟨2, _⟩ => rfl)

private theorem rhs_v68 (b : Fin 512) (s : Fin 36) (n : Fin 4096) (k : Fin 1024) : ridx_main_v68 (ix3 b s n) k = ix2 k n :=
  funext fun a => Fin.ext (by match a with | ⟨0, _⟩ => rfl | ⟨1, _⟩ => rfl)

private theorem lhs_v73 (b : Fin 512) (s : Fin 36) (h : Fin 1024) (n : Fin 4096) : lidx_main_v73 (ix3 b s h) n = ix3 b s n :=
  funext fun a => Fin.ext (by match a with | ⟨0, _⟩ => rfl | ⟨1, _⟩ => rfl | ⟨2, _⟩ => rfl)

private theorem rhs_v73 (b : Fin 512) (s : Fin 36) (h : Fin 1024) (n : Fin 4096) : ridx_main_v73 (ix3 b s h) n = ix2 n h :=
  funext fun a => Fin.ext (by match a with | ⟨0, _⟩ => rfl | ⟨1, _⟩ => rfl)

/-! ### The rows the stages are stated over -/

/-- Row (b, s) of the sum of the two inputs. -/
private abbrev inRow (x0 x1 : (⟨S512x36x1024, .f32⟩ : BufTy).Contents (Elt Ideal)) (b : Fin 512) (s : Fin 36) : Row :=
  fun k => x0 (ix3 b s k) + x1 (ix3 b s k)

/-- Row (b, s) of the first layer norm, scaled by the row's gate weight. -/
private abbrev midRow (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal)) (b : Fin 512) (s : Fin 36) : Row :=
  fun k => val_main_v64 (F := Ideal) x2 x3 (ix2 b s) * lnDiv (fun k => x4 (ix1 k)) (fun k => x5 (ix1 k)) (inRow x0 x1 b s) k

/-- Row (b, s) of the residual sum: the scaled first norm plus its feed-forward image. -/
private abbrev resRow (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal))
    (x8 : (⟨S1024x4096, .f32⟩ : BufTy).Contents (Elt Ideal)) (x9 : (⟨S4096, .f32⟩ : BufTy).Contents (Elt Ideal))
    (x10 : (⟨S4096x1024, .f32⟩ : BufTy).Contents (Elt Ideal)) (x11 : (⟨S1024, .f32⟩ : BufTy).Contents (Elt Ideal)) (b : Fin 512) (s : Fin 36) : Row :=
  fun k => midRow x0 x1 x2 x3 x4 x5 b s k
    + ffn (fun k n => x8 (ix2 k n)) (fun n => x9 (ix1 n)) (fun n h' => x10 (ix2 n h')) (fun h' => x11 (ix1 h'))
        (midRow x0 x1 x2 x3 x4 x5 b s) k

/-! ### The first layer norm -/

/-- The sum of the two inputs at an entry. -/
private theorem v0_at (x0 x1 : (⟨S512x36x1024, .f32⟩ : BufTy).Contents (Elt Ideal)) (b : Fin 512) (s : Fin 36) (k : Fin 1024) :
    val_main_v0 (F := Ideal) x0 x1 (ix3 b s k) = inRow x0 x1 b s k := rfl

/-- The mean of row (b, s) of the summed inputs. -/
private theorem v4_at (x0 x1 : (⟨S512x36x1024, .f32⟩ : BufTy).Contents (Elt Ideal)) (b : Fin 512) (s : Fin 36) :
    val_main_v4 (F := Ideal) x0 x1 (ix3 b s (0 : Fin 1)) = mean (inRow x0 x1 b s) := by
  rw [val_main_v4_apply, val_main_v2_apply, val_main_v1_apply, val_main_v3_apply, val_main_cst_0_apply, val_main_cst_apply]
  simp only [Ideal.hostDivf_def, Ideal.ofBits_def, Ideal.ofBits_zero_f32, zero_add, row_v1, v0_at]
  rfl

/-- The variance of row (b, s) of the summed inputs. -/
private theorem v11_at (x0 x1 : (⟨S512x36x1024, .f32⟩ : BufTy).Contents (Elt Ideal)) (b : Fin 512) (s : Fin 36) :
    val_main_v11 (F := Ideal) x0 x1 (ix3 b s (0 : Fin 1)) = var (inRow x0 x1 b s) := by
  rw [val_main_v11_apply, val_main_v9_apply, val_main_v8_apply, val_main_v10_apply, val_main_cst_2_apply, val_main_cst_1_apply]
  simp only [Ideal.hostDivf_def, Ideal.ofBits_def, Ideal.ofBits_zero_f32, zero_add, row_v8,
    val_main_v7_apply, val_main_v6_apply, val_main_v5_apply, Ideal.mulf_def, Ideal.subf_def, to_col_v5, v4_at, v0_at]
  rfl

/-- The first layer norm at an entry. -/
private theorem v24_at (x0 x1 : (⟨S512x36x1024, .f32⟩ : BufTy).Contents (Elt Ideal)) (x4 x5 : (⟨S1024, .f32⟩ : BufTy).Contents (Elt Ideal))
    (b : Fin 512) (s : Fin 36) (k : Fin 1024) :
    val_main_v24 (F := Ideal) x0 x1 x4 x5 (ix3 b s k)
      = lnDiv (fun k => x4 (ix1 k)) (fun k => x5 (ix1 k)) (inRow x0 x1 b s) k := by
  rw [val_main_v24_apply, val_main_v21_apply, val_main_v23_apply, val_main_v22_apply, val_main_v20_apply, val_main_v19_apply,
    val_main_v18_apply, val_main_v17_apply, val_main_cst_3_apply, val_main_v16_apply, val_main_v15_apply, val_main_v14_apply,
    val_main_v13_apply, val_main_v12_apply]
  simp only [Ideal.hostDivf_def, Ideal.ofBits_def, Ideal.addf_def, Ideal.mulf_def, Ideal.subf_def, Ideal.hostUnary_sqrt_def,
    par_v14, par_v22, to_col_v12, to_col_v20, v4_at, v11_at, v0_at]
  rfl

/-! ### The gate scaling and the feed-forward block -/

/-- The first layer norm scaled by the row's gate weight, at an entry. -/
private theorem v67_at (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal)) (b : Fin 512) (s : Fin 36) (k : Fin 1024) :
    val_main_v67 (F := Ideal) x0 x1 x2 x3 x4 x5 (ix3 b s k) = midRow x0 x1 x2 x3 x4 x5 b s k := by
  rw [val_main_v67_apply, val_main_v66_apply, val_main_v65_apply, v24_at]
  simp only [Ideal.mulf_def, to_col_v66, gate_v65]

/-- The hidden layer at an entry. -/
private theorem v72_at (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal))
    (x8 : (⟨S1024x4096, .f32⟩ : BufTy).Contents (Elt Ideal)) (x9 : (⟨S4096, .f32⟩ : BufTy).Contents (Elt Ideal)) (b : Fin 512) (s : Fin 36) (n : Fin 4096) :
    val_main_v72 (F := Ideal) x0 x1 x2 x3 x4 x5 x8 x9 (ix3 b s n)
      = hidden (fun k n => x8 (ix2 k n)) (fun n => x9 (ix1 n)) (midRow x0 x1 x2 x3 x4 x5 b s) n := by
  rw [val_main_v72_apply, val_main_v71_apply, val_main_v68_apply, val_main_v70_apply, val_main_v69_apply,
    val_main_call1_v0_apply, val_main_call1_cst_apply]
  simp only [Ideal.maximumf_def, Ideal.addf_def, Ideal.ofBits_def, Ideal.ofBits_zero_f32, lhs_v68, rhs_v68, par_v69, v67_at]
  rfl

/-- The residual sum at an entry. -/
private theorem v77_at (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal))
    (x8 : (⟨S1024x4096, .f32⟩ : BufTy).Contents (Elt Ideal)) (x9 : (⟨S4096, .f32⟩ : BufTy).Contents (Elt Ideal))
    (x10 : (⟨S4096x1024, .f32⟩ : BufTy).Contents (Elt Ideal)) (x11 : (⟨S1024, .f32⟩ : BufTy).Contents (Elt Ideal)) (b : Fin 512) (s : Fin 36) (k : Fin 1024) :
    val_main_v77 (F := Ideal) x0 x1 x2 x3 x4 x5 x8 x9 x10 x11 (ix3 b s k) = resRow x0 x1 x2 x3 x4 x5 x8 x9 x10 x11 b s k := by
  rw [val_main_v77_apply, val_main_v76_apply, val_main_v73_apply, val_main_v75_apply, val_main_v74_apply, v67_at]
  simp only [Ideal.addf_def, lhs_v73, rhs_v73, par_v74, v72_at]
  rfl

/-! ### The second layer norm -/

/-- The mean of row (b, s) of the residual sum. -/
private theorem v81_at (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal))
    (x8 : (⟨S1024x4096, .f32⟩ : BufTy).Contents (Elt Ideal)) (x9 : (⟨S4096, .f32⟩ : BufTy).Contents (Elt Ideal))
    (x10 : (⟨S4096x1024, .f32⟩ : BufTy).Contents (Elt Ideal)) (x11 : (⟨S1024, .f32⟩ : BufTy).Contents (Elt Ideal)) (b : Fin 512) (s : Fin 36) :
    val_main_v81 (F := Ideal) x0 x1 x2 x3 x4 x5 x8 x9 x10 x11 (ix3 b s (0 : Fin 1))
      = mean (resRow x0 x1 x2 x3 x4 x5 x8 x9 x10 x11 b s) := by
  rw [val_main_v81_apply, val_main_v79_apply, val_main_v78_apply, val_main_v80_apply, val_main_cst_19_apply, val_main_cst_18_apply]
  simp only [Ideal.hostDivf_def, Ideal.ofBits_def, Ideal.ofBits_zero_f32, zero_add, row_v78, v77_at]
  rfl

/-- The variance of row (b, s) of the residual sum. -/
private theorem v88_at (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 : (⟨S1024, .f32⟩ : BufTy).Contents (Elt Ideal))
    (x8 : (⟨S1024x4096, .f32⟩ : BufTy).Contents (Elt Ideal)) (x9 : (⟨S4096, .f32⟩ : BufTy).Contents (Elt Ideal))
    (x10 : (⟨S4096x1024, .f32⟩ : BufTy).Contents (Elt Ideal)) (x11 : (⟨S1024, .f32⟩ : BufTy).Contents (Elt Ideal)) (b : Fin 512) (s : Fin 36) :
    val_main_v88 (F := Ideal) x0 x1 x2 x3 x4 x5 x8 x9 x10 x11 (ix3 b s (0 : Fin 1))
      = var (resRow x0 x1 x2 x3 x4 x5 x8 x9 x10 x11 b s) := by
  rw [val_main_v88_apply, val_main_v86_apply, val_main_v85_apply, val_main_v87_apply, val_main_cst_21_apply, val_main_cst_20_apply]
  simp only [Ideal.hostDivf_def, Ideal.ofBits_def, Ideal.ofBits_zero_f32, zero_add, row_v85,
    val_main_v84_apply, val_main_v83_apply, val_main_v82_apply, Ideal.mulf_def, Ideal.subf_def, to_col_v82, v81_at, v77_at]
  rfl

/-- The output's entry at (b, s, h), as the row function of row (b, s). -/
theorem ref_row (x0 x1 : (⟨S512x36x1024, .f32⟩ : BufTy).Contents (Elt Ideal)) (x2 : (⟨S512x36x36, .f32⟩ : BufTy).Contents (Elt Ideal))
    (x3 : (⟨S512x36, .f32⟩ : BufTy).Contents (Elt Ideal)) (x4 x5 x6 x7 : (⟨S1024, .f32⟩ : BufTy).Contents (Elt Ideal))
    (x8 : (⟨S1024x4096, .f32⟩ : BufTy).Contents (Elt Ideal)) (x9 : (⟨S4096, .f32⟩ : BufTy).Contents (Elt Ideal))
    (x10 : (⟨S4096x1024, .f32⟩ : BufTy).Contents (Elt Ideal)) (x11 : (⟨S1024, .f32⟩ : BufTy).Contents (Elt Ideal))
    (b : Fin 512) (s : Fin 36) (h : Fin 1024) :
    val_main_v101 (F := Ideal) x0 x1 x2 x3 x4 x5 x6 x7 x8 x9 x10 x11 (ix3 b s h)
      = rowOutDiv (fun k => x4 (ix1 k)) (fun k => x5 (ix1 k)) (fun k => x6 (ix1 k)) (fun k => x7 (ix1 k))
          (fun k n => x8 (ix2 k n)) (fun n => x9 (ix1 n)) (fun n h' => x10 (ix2 n h')) (fun h' => x11 (ix1 h'))
          (val_main_v64 (F := Ideal) x2 x3 (ix2 b s)) (fun k => x0 (ix3 b s k) + x1 (ix3 b s k)) h := by
  rw [val_main_v101_apply, val_main_v98_apply, val_main_v100_apply, val_main_v99_apply, val_main_v97_apply, val_main_v96_apply,
    val_main_v95_apply, val_main_v94_apply, val_main_cst_22_apply, val_main_v93_apply, val_main_v92_apply, val_main_v91_apply,
    val_main_v90_apply, val_main_v89_apply]
  simp only [Ideal.hostDivf_def, Ideal.ofBits_def, Ideal.addf_def, Ideal.mulf_def, Ideal.subf_def, Ideal.hostUnary_sqrt_def,
    par_v91, par_v99, to_col_v89, to_col_v97, v81_at, v88_at, v77_at]
  rfl

end Cert.ReferenceIdeal.Row

end
-- ==== Proof.Gate.lean ====
/-
  The gate, shared by the two programs.

  Both programs compute the per-row gate weight and the second result from the same two inputs by the same
  operations in the same order: a row sum, a blend with a constant, a global sum compared with zero, a square root,
  two more row sums, a comparison, and two affine combinations. So what the kernel program's operations before the
  region leave in the gate-weight buffer and in the second result's buffer are the reference's two stage functions of
  the same inputs, term for term.
-/
import proofs.«165265_j77592879170023_1_alg».proof.Proof.Gen.KernelIdeal.Frame
import proofs.«165265_j77592879170023_1_alg».proof.Proof.Gen.ReferenceIdeal.Read
import Idealize.ShloMosaic.Lib.StableHlo.Run

set_option maxRecDepth 16384

noncomputable section

namespace Cert.Gate

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- The gate weight the region finds is the reference's gate-weight stage of the same inputs. -/
theorem gate_w (c : Dev Cert.KernelIdeal.nD) :
    Cert.KernelIdeal.Gen.V (F := Ideal) m c Cert.KernelIdeal.main_v39
      = Cert.ReferenceIdeal.Read.val_main_v64 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp
  rfl

/-- The second result's buffer holds the reference's second-result stage of the same inputs. -/
theorem gate_ru (c : Dev Cert.KernelIdeal.nD) :
    Cert.KernelIdeal.Gen.V (F := Ideal) m c Cert.KernelIdeal.main_v30
      = Cert.ReferenceIdeal.Read.val_main_v55 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons,
    List.flatten_nil, List.append_nil, List.cons_append, List.nil_append]
  after_results_simp
  rfl

end Cert.Gate

end
-- ==== Proof.lean ====
/-
  The claim: the kernel program and the reference compute the same two results on the extended reals.

  Both programs are a gate on (att_map, ru) followed by, row by row, a layer norm of v + q, a scaling by the row's gate
  weight, a feed-forward block with a residual, and a second layer norm. They differ in three ways, none of which
  changes a value on the extended reals. The kernel program works on the arrays flattened to [18432, 1024] in blocks
  of 128 rows and views the result as [512, 36, 1024] again: a relabelling of rows. It rounds the matrix operands to
  a narrower format, which is the identity here, and accumulates each product into a zero array, which adds nothing.
  And it multiplies by the reciprocal square root of the variance plus ε where the reference divides by the square
  root: equal because that quantity is positive for every row, being a nonnegative sum of squares over 1024 plus a
  positive ε (Proof/RowSpec.lean). The inputs' finiteness is not used.

  The three frames are the generated ones (the reference's is its generated run with the results dropped); the
  idealization rewrote nothing, so its claim is trivial; the value claim takes the kernel program's run with its
  results named (Proof/KernelArr.lean), the reference's generated run read at an entry (Proof/RefRow.lean), the gate as
  one shared function (Proof/Gate.lean) and the equality of the two row forms.
-/
import proofs.«165265_j77592879170023_1_alg».proof.Defs
import proofs.«165265_j77592879170023_1_alg».proof.Proof.Gen.Kernel
import proofs.«165265_j77592879170023_1_alg».proof.Proof.Gen.Kernel.Skeleton
import proofs.«165265_j77592879170023_1_alg».proof.Proof.Gen.Kernel.Launch
import proofs.«165265_j77592879170023_1_alg».proof.Proof.Gen.Kernel.Points
import proofs.«165265_j77592879170023_1_alg».proof.Proof.Gen.Kernel.Frame
import proofs.«165265_j77592879170023_1_alg».proof.Proof.Gen.KernelIdeal
import proofs.«165265_j77592879170023_1_alg».proof.Proof.Gen.KernelIdeal.Skeleton
import proofs.«165265_j77592879170023_1_alg».proof.Proof.Gen.KernelIdeal.Launch
import proofs.«165265_j77592879170023_1_alg».proof.Proof.Gen.KernelIdeal.Points
import proofs.«165265_j77592879170023_1_alg».proof.Proof.Gen.KernelIdeal.Frame
import proofs.«165265_j77592879170023_1_alg».proof.Proof.Gen.ReferenceIdeal
import proofs.«165265_j77592879170023_1_alg».proof.Proof.Gen.Pre_finite_inputs
import proofs.«165265_j77592879170023_1_alg».proof.Proof.Gen.ReferenceIdeal.Run
import proofs.«165265_j77592879170023_1_alg».proof.Proof.Gen.ReferenceIdeal.Read
import proofs.«165265_j77592879170023_1_alg».proof.Proof.RowSpec
import proofs.«165265_j77592879170023_1_alg».proof.Proof.KernelArr
import proofs.«165265_j77592879170023_1_alg».proof.Proof.RefRow
import proofs.«165265_j77592879170023_1_alg».proof.Proof.Gate
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the first result at the row function of each row and the second at the gate's second
    output, from memories that agree on the arguments. -/
theorem algebraic : Cert.algebraic_KernelIdeal_ReferenceIdeal := by
  intro m ρ m' ρ' _ hagree
  refine ⟨fun c => (fun i : Cert.KernelIdeal.S512x36x1024.Idx => Cert.KernelIdeal.Arr.outAt m c (i 0) (i 1) (i 2)),
    fun c => Cert.KernelIdeal.Gen.V (F := Ideal) m c Cert.KernelIdeal.main_v30, Cert.KernelIdeal.Arr.run_named m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v101_eq, e0, e1, e2, e3, e4, e5, e6, e7, e8, e9, e10, e11]
    funext i
    obtain ⟨b, s, h, rfl⟩ : ∃ (b : Fin 512) (s : Fin 36) (h : Fin 1024), i = ix3 b s h := ⟨i 0, i 1, i 2, eq_ix3 i⟩
    rw [Cert.ReferenceIdeal.Row.ref_row]
    show _ = Cert.KernelIdeal.Arr.outAt m c b s h
    unfold Cert.KernelIdeal.Arr.outAt
    rw [Cert.RowSpec.rowOutRsqrt_eq_rowOutDiv, Cert.Gate.gate_w m c]
  · obtain ⟨_, _, e2, e3, _⟩ := hagree c
    rw [Cert.ReferenceIdeal.Read.val_main_v55_eq, e2, e3]
    exact (Cert.Gate.gate_ru m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
